-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  IdealRules.truncf_extf.Statement Cert.KernelIdeal.S512x1024 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x1024 : Shape := ⟨3, ![8, 2048, 1024]⟩
abbrev S1024x1024 : Shape := ⟨2, ![1024, 1024]⟩
abbrev S_ : Shape := ⟨0, ![]⟩

class Facts : Prop where
  bcast_S_S8x2048x1024 : S_.BroadcastsInDim S8x2048x1024 (![] : Fin 0 → Fin S8x2048x1024.rank)
  reducesTo_S8x2048x1024_S_d0_1_2 : S8x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_arg4 : FVec F S1024x1024 .f32) (main_arg5 : FVec F S1024x1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  main_v28

def fn {F : FTy → Type} [FloatOps F] (main_arg0 : FVec F S8x2048x1024 .f32) (main_arg1 : FVec F S8x2048x1024 .f32) (main_arg2 : FVec F S8x2048x1024 .f32) (main_arg3 : FVec F S1024x1024 .f32) (main_arg4 : FVec F S1024x1024 .f32) (main_arg5 : FVec F S1024x1024 .f32) : IVec S_ 1 :=
  let main_v0 : FVec F S8x2048x1024 .f32 := Host.absf main_arg0
  let main_cst : FVec F S_ .f32 := constant S_ .f32 0x7F800000#32
  let main_v1 : FVec F S8x2048x1024 .f32 := broadcastInDim S8x2048x1024 ![] bcast_S_S8x2048x1024 main_cst
  let main_v2 : IVec S8x2048x1024 1 := cmpf .olt main_v0 main_v1
  let main_c : IVec S_ 1 := constantI S_ 1 1#1
  let main_v3 : IVec S_ 1 := (fun x v => Host.reduce IntOp.andi x v reducesTo_S8x2048x1024_S_d0_1_2 h_S_) main_v2 main_c
  let main_v4 : FVec F S8x2048x1024 .f32 := Host.absf main_arg1
  let main_cst_0 : FVec F S_ .f32 := constant S_ .f32 0x7F800000#32
  let main_v5 : FVec F S8x2048x1024 .f32 := broadcastInDim S8x2048x1024 ![] bcast_S_S8x2048x1024 main_cst_0
  let main_v6 : IVec S8x2048x1024 1 := cmpf .olt main_v4 main_v5
  let main_c_1 : IVec S_ 1 := constantI S_ 1 1#1
  let main_v7 : IVec S_ 1 := (fun x v => Host.reduce IntOp.andi x v reducesTo_S8x2048x1024_S_d0_1_2 h_S_) main_v6 main_c_1
  let main_v8 : IVec S_ 1 := andi main_v3 main_v7
  let main_v9 : FVec F S8x2048x1024 .f32 := Host.absf main_arg2
  let main_cst_2 : FVec F S_ .f32 := constant S_ .f32 0x7F800000#32
  let main_v10 : FVec F S8x2048x1024 .f32 := broadcastInDim S8x2048x1024 ![] bcast_S_S8x2048x1024 main_cst_2
  let main_v11 : IVec S8x2048x1024 1 := cmpf .olt main_v9 main_v10
  let main_c_3 : IVec S_ 1 := constantI S_ 1 1#1
  let main_v12 : IVec S_ 1 := (fun x v => Host.reduce IntOp.andi x v reducesTo_S8x2048x1024_S_d0_1_2 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_v13 main_v16
-- ==== Kernel.lean ====
abbrev S8x2048x1024 : Shape := ⟨3, ![8, 2048, 1024]⟩
abbrev S1024x1024 : Shape := ⟨2, ![1024, 1024]⟩
abbrev S16384x1024 : Shape := ⟨2, ![16384, 1024]⟩
abbrev S1x512x1024 : Shape := ⟨3, ![1, 512, 1024]⟩
abbrev S1x2048x1024 : Shape := ⟨3, ![1, 2048, 1024]⟩
abbrev S512x1024 : Shape := ⟨2, ![512, 1024]⟩
abbrev S512x1 : Shape := ⟨2, ![512, 1]⟩
abbrev S512x512 : Shape := ⟨2, ![512, 512]⟩
abbrev S512 : Shape := ⟨1, ![512]⟩

abbrev nBuf : Space → Nat
  | .hbm => 16
  | .vmem => 15
  | .smem => 0
  | _ => 0

abbrev bufTy : (tb : Table) → Fin (tcTables nBuf tb) → BufTy
  | .hbm, ⟨0, _⟩ => ⟨S8x2048x1024, .f32⟩
  | .hbm, ⟨1, _⟩ => ⟨S8x2048x1024, .f32⟩
  | .hbm, ⟨2, _⟩ => ⟨S8x2048x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024x1024, .bf16⟩
  | .hbm, ⟨8, _⟩ => ⟨S1024x1024, .f32⟩
  | .hbm, ⟨9, _⟩ => ⟨S1024x1024, .bf16⟩
  | .hbm, ⟨10, _⟩ => ⟨S1024x1024, .f32⟩
  | .hbm, ⟨11, _⟩ => ⟨S1024x1024, .bf16⟩
  | .hbm, ⟨12, _⟩ => ⟨S16384x1024, .f32⟩
  | .hbm, ⟨13, _⟩ => ⟨S16384x1024, .bf16⟩
  | .hbm, ⟨14, _⟩ => ⟨S8x2048x1024, .bf16⟩
  | .hbm, ⟨15, _⟩ => ⟨S8x2048x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1x512x1024, .f32⟩
  | .local _ .vmem, ⟨6, _⟩ => ⟨S1x512x1024, .f32⟩
  | .local _ .vmem, ⟨7, _⟩ => ⟨S1024x1024, .bf16⟩
  | .local _ .vmem, ⟨8, _⟩ => ⟨S1x2048x1024, .bf16⟩
  | .local _ .vmem, ⟨9, _⟩ => ⟨S1x2048x1024, .bf16⟩
  | .local _ .vmem, ⟨10, _⟩ => ⟨S1x512x1024, .f32⟩
  | .local _ .vmem, ⟨11, _⟩ => ⟨S1x512x1024, .f32⟩
  | .local _ .vmem, ⟨12, _⟩ => ⟨S1024x1024, .bf16⟩
  | .local _ .vmem, ⟨13, _⟩ => ⟨S1x512x1024, .f32⟩
  | .local _ .vmem, ⟨14, _⟩ => ⟨S1x512x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg5_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc1_sem3_0 : DmaSem sig := 10
abbrev cc1_sem3_1 : DmaSem sig := 11
abbrev cc1_sem4_0 : DmaSem sig := 12
abbrev cc1_sem5_0 : DmaSem sig := 13
abbrev cc1_sem5_1 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![8, 4], ![false, false]⟩

@[reducible] def k1_t1_loop : Scf.Loop 32 :=
  let c0_i32 : BitVec 32 := 0#32
  let c4_i32 : BitVec 32 := 4#32
  let v9 : BitVec 32 := Scalar.addi c0_i32 c4_i32
  let c1_i32 : BitVec 32 := 1#32
  ⟨c0_i32, v9, c1_i32⟩
def k1_mult1 (k1_t1 : Fin k1_t1_loop.trips) : BitVec 32 :=
  let c0_i32 : BitVec 32 := 0#32
  let c1_i32 : BitVec 32 := 1#32
  let arg8 : BitVec 32 := Scf.iv c0_i32 c1_i32 k1_t1
  let c512_i32_20 : BitVec 32 := 512#32
  let v37 : BitVec 32 := Scalar.muli arg8 c512_i32_20
  v37
def k1_off1 (k1_t1 : Fin k1_t1_loop.trips) : Fin 3 → Nat :=
  let c0_21 : Index := 0#32
  let c0_i32 : BitVec 32 := 0#32
  let c1_i32 : BitVec 32 := 1#32
  let arg8 : BitVec 32 := Scf.iv c0_i32 c1_i32 k1_t1
  let c512_i32_20 : BitVec 32 := 512#32
  let v37 : BitVec 32 := Scalar.muli arg8 c512_i32_20
  let v38 : BitVec 32 := v37
  let v39 : Index := Scalar.indexCast v38
  let c0_22 : Index := 0#32
  ![0, v39.toNat, 0]
def k1_mult2 (i : grid1.Coords) : BitVec 32 :=
  let arg1 : BitVec 32 := BitVec.ofNat 32 (i 1).val
  let c512_i32 : BitVec 32 := 512#32
  let v11 : BitVec 32 := Scalar.muli arg1 c512_i32
  v11
def k1_off2 (i : grid1.Coords) : Fin 3 → Nat :=
  let c0_7 : Index := 0#32
  let arg1 : BitVec 32 := BitVec.ofNat 32 (i 1).val
  let c512_i32 : BitVec 32 := 512#32
  let v11 : BitVec 32 := Scalar.muli arg1 c512_i32
  let v12 : BitVec 32 := v11
  let v13 : Index := Scalar.indexCast v12
  let c0_8 : Index := 0#32
  ![0, v13.toNat, 0]
def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S1024x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 2 → Memref sig .tc .vmem S1x2048x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x512x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 1 → Memref sig .tc .vmem S1024x1024 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S1x512x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

class Facts₀ : Prop where
  transposes_S1024x1024_S1024x1024_1_0 : S1024x1024.Transposes [1, 0] S1024x1024
  bitsLt_bf16_f32 : FTy.bits .bf16 < FTy.bits .f32
  shapeCasts_S8x2048x1024_S16384x1024 : S8x2048x1024.ShapeCasts S16384x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  packedbf16_S1024x1024_S1024x1024_0_0 : (Rect.unit (s := S1024x1024) ![0, 0] S1024x1024.size inb_S1024x1024_S1024x1024_0_0).PackedRows (EltTy.packing .bf16)
  shapeCasts_S16384x1024_S8x2048x1024 : S16384x1024.ShapeCasts S8x2048x1024
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  reduces_S512x512_S512 : S512x512.Reduces [1] S512
  shapeCasts_S512_S512x1 : S512.ShapeCasts S512x1
  broadcasts_S512x1_S512x512 : S512x1.Broadcasts S512x512
  reduces_S512x1024_S512 : S512x1024.Reduces [1] S512
  broadcasts_S512x1_S512x1024 : S512x1.Broadcasts S512x1024
  shapeCasts_S512x1024_S1x512x1024 : S512x1024.ShapeCasts S1x512x1024
  dot_S1024x1024_S1024x1024_S1024x1024_1_0_0_1_n_n_wf : DotDims.WF S1024x1024 S1024x1024 S1024x1024 [1] [0] [0] [1] [] []
  dot_S512x1024_S1024x1024_S512x1024_1_0_0_1_n_n_wf : DotDims.WF S512x1024 S1024x1024 S512x1024 [1] [0] [0] [1] [] []
  dot_S512x1024_S512x1024_S512x512_1_1_0_0_n_n_wf : DotDims.WF S512x1024 S512x1024 S512x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S16384x1024.size a
  hwx0_0 : ∀ i : grid0.Coords, EltTy.bits .f32 = 32 ∨ (Rect.block (s := S16384x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S16384x1024.size a
  hwx0_2 : ∀ i : grid0.Coords, EltTy.bits .bf16 = 32 ∨ (Rect.block (s := S16384x1024) S1024x1024.size (cc0_transform_2 i) (hinb0_2 i)).WholeWords (EltTy.packing .bf16)
  hrank1 : 0 < grid1.rank
  k1_t1_ok : k1_t1_loop.OK
  k1_mult1_dvd : ∀ k1_t1 : Fin k1_t1_loop.trips, 512 ∣ (k1_mult1 k1_t1).toNat
  k1_off1_inb : ∀ k1_t1 : Fin k1_t1_loop.trips, ∀ a, (k1_off1 k1_t1) a + S1x512x1024.size a ≤ S1x2048x1024.size a
  k1_mult2_dvd : ∀ i : grid1.Coords, 512 ∣ (k1_mult2 i).toNat
  k1_off2_inb : ∀ i : grid1.Coords, ∀ a, (k1_off2 i) a + S1x512x1024.size a ≤ S1x2048x1024.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x1024.size a ≤ S8x2048x1024.size a
  hwx1_0 : ∀ i : grid1.Coords, EltTy.bits .f32 = 32 ∨ (Rect.block (s := S8x2048x1024) S1x512x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S1024x1024.size a
  hwx1_1 : ∀ i : grid1.Coords, EltTy.bits .bf16 = 32 ∨ (Rect.block (s := S1024x1024) S1024x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048x1024.size a ≤ S8x2048x1024.size a
  hwx1_2 : ∀ i : grid1.Coords, EltTy.bits .bf16 = 32 ∨ (Rect.block (s := S8x2048x1024) S1x2048x1024.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x512x1024.size a ≤ S8x2048x1024.size a
  hwx1_3 : ∀ i : grid1.Coords, EltTy.bits .f32 = 32 ∨ (Rect.block (s := S8x2048x1024) S1x512x1024.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1024x1024.size a ≤ S1024x1024.size a
  hwx1_4 : ∀ i : grid1.Coords, EltTy.bits .bf16 = 32 ∨ (Rect.block (s := S1024x1024) S1024x1024.size (cc1_transform_4 i) (hinb1_4 i)).WholeWords (EltTy.packing .bf16)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x512x1024.size a ≤ S8x2048x1024.size a
  hwx1_5 : ∀ i : grid1.Coords, EltTy.bits .f32 = 32 ∨ (Rect.block (s := S8x2048x1024) S1x512x1024.size (cc1_transform_5 i) (hinb1_5 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S512x1024_S512x1024_S512x512_1_1_0_0_n_n : DotDims S512x1024 S512x1024 S512x512 where
  lhsContracting := [1]
  rhsContracting := [1]
  lhsNonContracting := [0]
  rhsNonContracting := [0]
  lhsBatch := []
  rhsBatch := []
  wf := dot_S512x1024_S512x1024_S512x512_1_1_0_0_n_n_wf

abbrev win0_0 : Pipeline.Window sig grid0 :=
  Pipeline.Window.ofSpec (Memref.whole main_v6) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S1x512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S1024x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v8) S1x2048x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg2) S1x512x1024.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v5) S1024x1024.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v9) S1x512x1024.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S8x2048x1024 : Shape := ⟨3, ![8, 2048, 1024]⟩
abbrev S1024x1024 : Shape := ⟨2, ![1024, 1024]⟩
abbrev S_ : Shape := ⟨0, ![]⟩
abbrev S8x2048x2048 : Shape := ⟨3, ![8, 2048, 2048]⟩
abbrev S8x2048 : Shape := ⟨2, ![8, 2048]⟩
abbrev S8x1x2048 : Shape := ⟨3, ![8, 1, 2048]⟩
abbrev S2048 : Shape := ⟨1, ![2048]⟩
abbrev S2048x1 : Shape := ⟨2, ![2048, 1]⟩
abbrev S2048x2 : Shape := ⟨2, ![2048, 2]⟩
abbrev S8x2048x1 : Shape := ⟨3, ![8, 2048, 1]⟩

abbrev nBuf : Space → Nat
  | .hbm => 53
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x2048x1024, .f32⟩
  | .hbm, ⟨2, _⟩ => ⟨S8x2048x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S8x2048x1024, .f32⟩
  | .hbm, ⟨7, _⟩ => ⟨S8x2048x1024, .f32⟩
  | .hbm, ⟨8, _⟩ => ⟨S8x2048x1024, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S8x2048x2048, .f32⟩
  | .hbm, ⟨14, _⟩ => ⟨S8x2048x2048, .f32⟩
  | .hbm, ⟨15, _⟩ => ⟨S8x2048x2048, .f32⟩
  | .hbm, ⟨16, _⟩ => ⟨S_, .f32⟩
  | .hbm, ⟨17, _⟩ => ⟨S8x2048, .f32⟩
  | .hbm, ⟨18, _⟩ => ⟨S_, .f32⟩
  | .hbm, ⟨19, _⟩ => ⟨S8x2048, .f32⟩
  | .hbm, ⟨20, _⟩ => ⟨S8x2048, .f32⟩
  | .hbm, ⟨21, _⟩ => ⟨S8x1x2048, .f32⟩
  | .hbm, ⟨22, _⟩ => ⟨S8x2048x2048, .f32⟩
  | .hbm, ⟨23, _⟩ => ⟨S8x2048x2048, .f32⟩
  | .hbm, ⟨24, _⟩ => ⟨S8x2048x2048, .f32⟩
  | .hbm, ⟨25, _⟩ => ⟨S_, .f32⟩
  | .hbm, ⟨26, _⟩ => ⟨S8x2048, .f32⟩
  | .hbm, ⟨27, _⟩ => ⟨S8x1x2048, .f32⟩
  | .hbm, ⟨28, _⟩ => ⟨S8x2048x2048, .f32⟩
  | .hbm, ⟨29, _⟩ => ⟨S8x2048x2048, .f32⟩
  | .hbm, ⟨30, _⟩ => ⟨S2048, .i32⟩
  | .hbm, ⟨31, _⟩ => ⟨S2048, .i32⟩
  | .hbm, ⟨32, _⟩ => ⟨S_, .i32⟩
  | .hbm, ⟨33, _⟩ => ⟨S2048, .i32⟩
  | .hbm, ⟨34, _⟩ => ⟨S2048, .i1⟩
  | .hbm, ⟨35, _⟩ => ⟨S_, .i32⟩
  | .hbm, ⟨36, _⟩ => ⟨S2048, .i32⟩
  | .hbm, ⟨37, _⟩ => ⟨S2048, .i32⟩
  | .hbm, ⟨38, _⟩ => ⟨S2048, .i32⟩
  | .hbm, ⟨39, _⟩ => ⟨S_, .i32⟩
  | .hbm, ⟨40, _⟩ => ⟨S2048, .i32⟩
  | .hbm, ⟨41, _⟩ => ⟨S2048, .i1⟩
  | .hbm, ⟨42, _⟩ => ⟨S_, .i32⟩
  | .hbm, ⟨43, _⟩ => ⟨S2048, .i32⟩
  | .hbm, ⟨44, _⟩ => ⟨S2048, .i32⟩
  | .hbm, ⟨45, _⟩ => ⟨S2048, .i32⟩
  | .hbm, ⟨46, _⟩ => ⟨S2048x1, .i32⟩
  | .hbm, ⟨47, _⟩ => ⟨S2048x1, .i32⟩
  | .hbm, ⟨48, _⟩ => ⟨S2048x2, .i32⟩
  | .hbm, ⟨49, _⟩ => ⟨S8x2048, .f32⟩
  | .hbm, ⟨50, _⟩ => ⟨S8x2048x1, .f32⟩
  | .hbm, ⟨51, _⟩ => ⟨S8x2048x1024, .f32⟩
  | .hbm, ⟨52, _⟩ => ⟨S8x2048x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_call0_v0 : Ref sig .tc := ⟨.hbm, 30, rfl⟩
abbrev main_call0_v1 : Ref sig .tc := ⟨.hbm, 31, rfl⟩
abbrev main_call0_c : Ref sig .tc := ⟨.hbm, 32, rfl⟩
abbrev main_call0_v2 : Ref sig .tc := ⟨.hbm, 33, rfl⟩
abbrev main_call0_v3 : Ref sig .tc := ⟨.hbm, 34, rfl⟩
abbrev main_call0_c_0 : Ref sig .tc := ⟨.hbm, 35, rfl⟩
abbrev main_call0_v4 : Ref sig .tc := ⟨.hbm, 36, rfl⟩
abbrev main_call0_v5 : Ref sig .tc := ⟨.hbm, 37, rfl⟩
abbrev main_call0_v6 : Ref sig .tc := ⟨.hbm, 38, rfl⟩
abbrev main_call0_c_1 : Ref sig .tc := ⟨.hbm, 39, rfl⟩
abbrev main_call0_v7 : Ref sig .tc := ⟨.hbm, 40, rfl⟩
abbrev main_call0_v8 : Ref sig .tc := ⟨.hbm, 41, rfl⟩
abbrev main_call0_c_2 : Ref sig .tc := ⟨.hbm, 42, rfl⟩
abbrev main_call0_v9 : Ref sig .tc := ⟨.hbm, 43, rfl⟩
abbrev main_call0_v10 : Ref sig .tc := ⟨.hbm, 44, rfl⟩
abbrev main_call0_v11 : Ref sig .tc := ⟨.hbm, 45, rfl⟩
abbrev main_call0_v12 : Ref sig .tc := ⟨.hbm, 46, rfl⟩
abbrev main_call0_v13 : Ref sig .tc := ⟨.hbm, 47, rfl⟩
abbrev main_call0_v14 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩

abbrev nD : Nat := 1
abbrev τ : Topo := Topo.v7x

variable {F : FTy → Type} [FloatOps F]

class Facts₀ : Prop where
  bcast_S_S8x2048x2048 : S_.BroadcastsInDim S8x2048x2048 (![] : Fin 0 → Fin S8x2048x2048.rank)
  reducesTo_S8x2048x2048_S8x2048_d1 : S8x2048x2048.ReducesTo [1] S8x2048
  h_S_ : 0 < S_.numel
  bcast_S_S8x2048 : S_.BroadcastsInDim S8x2048 (![] : Fin 0 → Fin S8x2048.rank)
  bcast_S8x2048_S8x1x2048_0_2 : S8x2048.BroadcastsInDim S8x1x2048 (![0, 2] : Fin 2 → Fin S8x1x2048.rank)
  bcast_S8x1x2048_S8x2048x2048_0_1_2 : S8x1x2048.BroadcastsInDim S8x2048x2048 (![0, 1, 2] : Fin 3 → Fin S8x2048x2048.rank)
  bcast_S_S2048 : S_.BroadcastsInDim S2048 (![] : Fin 0 → Fin S2048.rank)
  bcast_S2048_S2048x1_0 : S2048.BroadcastsInDim S2048x1 (![0] : Fin 1 → Fin S2048x1.rank)
  concatenates_S2048x1_S2048x1_S2048x2_d1 : Shape.Concatenates [S2048x1, S2048x1] S2048x2 1
  bcast_S8x2048_S8x2048x1_0_1 : S8x2048.BroadcastsInDim S8x2048x1 (![0, 1] : Fin 2 → Fin S8x2048x1.rank)
  bcast_S8x2048x1_S8x2048x1024_0_1_2 : S8x2048x1.BroadcastsInDim S8x2048x1024 (![0, 1, 2] : Fin 3 → Fin S8x2048x1024.rank)
  dot_S8x2048x1024_S1024x1024_S8x2048x1024_2_1_01_0_n_n_wf : DotDims.WF S8x2048x1024 S1024x1024 S8x2048x1024 [2] [1] [0, 1] [0] [] []
  dot_S8x2048x1024_S8x2048x1024_S8x2048x2048_2_2_1_1_0_0_wf : DotDims.WF S8x2048x1024 S8x2048x1024 S8x2048x2048 [2] [2] [1] [1] [0] [0]
  gather_S8x2048x2048_S2048x2_S8x2048_0_12_n_n_12_1_811_wf : GatherDims.WF S8x2048x2048 S2048x2 S8x2048 [0] [1, 2] [] [1, 2] [] 1 ![8, 1, 1]

variable [Facts₀]

def dot_S8x2048x1024_S1024x1024_S8x2048x1024_2_1_01_0_n_n : DotDims S8x2048x1024 S1024x1024 S8x2048x1024 where
  lhsContracting := [2]
  rhsContracting := [1]
  lhsNonContracting := [0, 1]
  rhsNonContracting := [0]
  lhsBatch := []
  rhsBatch := []
  wf := dot_S8x2048x1024_S1024x1024_S8x2048x1024_2_1_01_0_n_n_wf
def dot_S8x2048x1024_S8x2048x1024_S8x2048x2048_2_2_1_1_0_0 : DotDims S8x2048x1024 S8x2048x1024 S8x2048x2048 where
  lhsContracting := [2]
  rhsContracting := [2]
  lhsNonContracting := [1]
  rhsNonContracting := [1]
  lhsBatch := [0]
  rhsBatch := [0]
  wf := dot_S8x2048x1024_S8x2048x1024_S8x2048x2048_2_2_1_1_0_0_wf
def gather_S8x2048x2048_S2048x2_S8x2048_0_12_n_n_12_1_811 : GatherDims S8x2048x2048 S2048x2 S8x2048 where
  offsetDims := [0]
  collapsedSliceDims := [1, 2]
  operandBatchingDims := []
  startIndicesBatchingDims := []
  startIndexMap := [1, 2]
  indexVectorDim := 1
  sliceSizes := ![8, 1, 1]
  wf := gather_S8x2048x2048_S2048x2_S8x2048_0_12_n_n_12_1_811_wf

class Facts : Prop extends Facts₀ where

variable [Facts]
-- ==== Proof.Spec.lean ====
/-
  What both programs compute, as one function of the six argument arrays over the extended reals.

  Three linear layers without bias: row s of batch b of an input against row g of a weight,
  Σ_f x[b,s,f] · w[g,f].  The score of query row i against key row s is the inner product of the two
  projected rows times 1/32.  For a fixed key row s the scores are normalised over the QUERY rows i
  (a softmax down a column): with M[b,s] the largest score of the column and Z[b,s] the sum over i of
  exp (score[b,i,s] − M[b,s]), the weight kept is the DIAGONAL one, exp (score[b,s,s] − M[b,s]) / Z[b,s],
  and the result is that weight times the projected value row, entry by entry.
-/
import Idealize.ShloMosaic.PureOps.Ideal
import Idealize.ShloMosaic.Lib.ValueIdx

noncomputable section

namespace Cert.Attn

open Idealize.ShloMosaic Idealize.ShloMosaic.ValueIdx

/-- The three inputs' shape: batch, sequence position, feature. -/
abbrev SA : Shape := ⟨3, ![8, 2048, 1024]⟩
/-- A weight's shape: output feature, input feature. -/
abbrev SW : Shape := ⟨2, ![1024, 1024]⟩

/-- The score scale, 1/32, as the f32 word the kernel carries. -/
def scale : EReal := Ideal.ofBits .f32 0x3D000000#32

/-- A linear layer without bias: row `s` of batch `b` of `x` against row `g` of `w`. -/
def proj (x : FVec Ideal SA .f32) (w : FVec Ideal SW .f32) (b : Fin 8) (s : Fin 2048) (g : Fin 1024) : EReal :=
  ∑ f : Fin 1024, x (ix3 b s f) * w (ix2 g f)

/-- The scaled score of projected query row `i` against projected key row `s`. -/
def score (q k : FVec Ideal SA .f32) (wq wk : FVec Ideal SW .f32) (b : Fin 8) (i s : Fin 2048) : EReal :=
  (∑ j : Fin 1024, proj q wq b i j * proj k wk b s j) * scale

/-- The largest score of key row `s`'s column, over the query rows. -/
def colMax (q k : FVec Ideal SA .f32) (wq wk : FVec Ideal SW .f32) (b : Fin 8) (s : Fin 2048) : EReal :=
  (Finset.univ : Finset (Fin 2048)).fold max ⊥ (fun i => score q k wq wk b i s)

/-- The column's normaliser: the sum over the query rows of the shifted exponentials. -/
def colSum (q k : FVec Ideal SA .f32) (wq wk : FVec Ideal SW .f32) (b : Fin 8) (s : Fin 2048) : EReal :=
  ∑ i : Fin 2048, Ideal.exp (score q k wq wk b i s - colMax q k wq wk b s)

/-- The result at batch `b`, row `s`, feature `g`: the diagonal softmax weight times the projected value. -/
def attnAt (q k v : FVec Ideal SA .f32) (wq wk wv : FVec Ideal SW .f32) (b : Fin 8) (s : Fin 2048) (g : Fin 1024) : EReal :=
  Ideal.div (Ideal.exp (score q k wq wk b s s - colMax q k wq wk b s)) (colSum q k wq wk b s) * proj v wv b s g

/-- The whole result array. -/
def attn (q k v : FVec Ideal SA .f32) (wq wk wv : FVec Ideal SW .f32) : FVec Ideal SA .f32 :=
  fun i => attnAt q k v wq wk wv (i 0) (i 1) (i 2)

theorem attn_ix3 (q k v : FVec Ideal SA .f32) (wq wk wv : FVec Ideal SW .f32) (b : Fin 8) (s : Fin 2048) (g : Fin 1024) :
    attn q k v wq wk wv (ix3 b s g) = attnAt q k v wq wk wv b s g := rfl

end Cert.Attn

end
-- ==== Proof.Finite.lean ====
/-
  The precondition says every entry of the six argument arrays is a real number.

  It is the conjunction of six all-reductions of "|x| < +∞"; an all-reduction that is true is true at every entry,
  and an extended real whose magnitude is below +∞ is neither infinity.
-/
import proofs.«402531_j73443940761807_3_alg».proof.Pre_finite_inputs
import proofs.«402531_j73443940761807_3_alg».proof.Proof.Gen.Pre_finite_inputs
import Idealize.ShloMosaic.Lib.ReduceAll
import Idealize.ShloMosaic.Lib.ValueIdx
import Idealize.ShloMosaic.PureOps.Ideal.Laws

noncomputable section

namespace Cert.Attn.Finite

open Idealize.ShloMosaic Cert.Pre_finite_inputs Cert.Pre_finite_inputs.Gen

instance : Subsingleton S_.Idx := ⟨fun a b => funext fun d => d.elim0⟩

/-- An extended real whose magnitude is strictly below +∞ is a real number. -/
theorem real_of_abs_lt (x : EReal)
    (h : FloatOps.cmpf (F := Ideal) (φ := .f32) .olt (FloatOps.hostAbsf (F := Ideal) (φ := .f32) x) (Ideal.ofBits .f32 0x7F800000#32) = 1#1) :
    ∃ r : ℝ, x = (r : EReal) := by
  have htop : Ideal.ofBits .f32 0x7F800000#32 = (⊤ : EReal) := by simp [Ideal.ofBits, Ideal.ieee]
  rw [htop] at h
  induction x using EReal.rec with
  | bot => exfalso; revert h; simp [Ideal.cmpf_def, Ideal.cmp, Ideal.hostAbsf_def, Ideal.absf_def]
  | coe r => exact ⟨r, rfl⟩
  | top => exfalso; revert h; simp [Ideal.cmpf_def, Ideal.cmp, Ideal.hostAbsf_def, Ideal.absf_def]

/-- One all-reduction of the precondition, read back at an entry. -/
theorem all_real {s : Shape} (a : FVec Ideal s .f32) (hb : S_.BroadcastsInDim s (![] : Fin 0 → Fin s.rank))
    {axes : List (Fin s.rank)} (hr : s.ReducesTo axes S_) (hu : 0 < S_.numel)
    (e : Host.reduce IntOp.andi (cmpf .olt (Host.absf a) (broadcastInDim s ![] hb (constant (F := Ideal) S_ .f32 0x7F800000#32)))
          (constantI S_ 1 1#1) hr hu ValueIdx.ix0 = 1#1) (i : s.Idx) : ∃ r : ℝ, a i = (r : EReal) := by
  have h := Host.reduce_andi_all _ _ hr hu ValueIdx.ix0 e i
  exact real_of_abs_lt (a i) h

/-- The precondition gives each argument array real entries. -/
theorem of_pre (a0 a1 a2 : FVec Ideal S8x2048x1024 .f32) (a3 a4 a5 : FVec Ideal S1024x1024 .f32)
    (h : fn (F := Ideal) a0 a1 a2 a3 a4 a5 = fun _ => 1#1) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a3 i = (r : EReal)) ∧ (∀ i, ∃ r : ℝ, a4 i = (r : EReal)) ∧ (∀ i, ∃ r : ℝ, a5 i = (r : EReal)) := by
  have h0 := congrFun h ValueIdx.ix0
  dsimp only [fn, fn_part1, andi] at h0
  obtain ⟨h0, e5⟩ := IntOp.andi_eq_one.1 h0
  obtain ⟨h0, e4⟩ := IntOp.andi_eq_one.1 h0
  obtain ⟨h0, e3⟩ := IntOp.andi_eq_one.1 h0
  obtain ⟨h0, e2⟩ := IntOp.andi_eq_one.1 h0
  obtain ⟨e0, e1⟩ := IntOp.andi_eq_one.1 h0
  exact ⟨all_real a0 _ _ _ e0, all_real a1 _ _ _ e1, all_real a2 _ _ _ e2, all_real a3 _ _ _ e3, all_real a4 _ _ _ e4,
    all_real a5 _ _ _ e5⟩

end Cert.Attn.Finite

end
-- ==== Proof.RefGather.lean ====
/-
  The reference's diagonal, as a gather read at an index.

  The gather takes, for every batch b, the one element at the start indices (row s of the index array): its two
  columns name the position on axes 1 and 2, each read as a signed word and clamped into [0, 2047].
-/
import proofs.«402531_j73443940761807_3_alg».proof.Proof.Gen.ReferenceIdeal
import Idealize.ShloMosaic.Lib.ValueIdx

noncomputable section

namespace Cert.Attn.Ref

open Idealize.ShloMosaic Idealize.ShloMosaic.ValueIdx Cert.ReferenceIdeal Cert.ReferenceIdeal.Gen

/-- Axis 0 of the operand index at (b, s): the batch coordinate b (the one offset axis; no start index names it). -/
theorem diag_axis0 {w : Nat} (idx : IVec S2048x2 w) (b : Fin 8) (s : Fin 2048) :
    (gather_S8x2048x2048_S2048x2_S8x2048_0_12_n_n_12_1_811.operandIdx (ix2 b s) idx 0).val = b.val := by
  show gather_S8x2048x2048_S2048x2_S8x2048_0_12_n_n_12_1_811.start (ix2 b s) idx 0 + gather_S8x2048x2048_S2048x2_S8x2048_0_12_n_n_12_1_811.batchCoord (ix2 b s) 0 + gather_S8x2048x2048_S2048x2_S8x2048_0_12_n_n_12_1_811.offCoord (ix2 b s) 0 = _
  rw [GatherDims.batchCoord_eq_zero _ _ _ (show (0 : Fin S8x2048x2048.rank) ∉ gather_S8x2048x2048_S2048x2_S8x2048_0_12_n_n_12_1_811.operandBatchingDims by decide)]
  unfold GatherDims.start
  rw [dif_neg (show ¬(0 : Fin S8x2048x2048.rank) ∈ gather_S8x2048x2048_S2048x2_S8x2048_0_12_n_n_12_1_811.startIndexMap by decide)]
  unfold GatherDims.offCoord
  rw [dif_pos (show (0 : Fin S8x2048x2048.rank) ∈ gather_S8x2048x2048_S2048x2_S8x2048_0_12_n_n_12_1_811.sKept by decide)]
  simp only [Nat.add_zero, Nat.zero_add]
  rfl

/-- Axis 1 of the operand index at (b, s): column 0 of row s of the start indices, signed and clamped; collapsed, so no offset. -/
theorem diag_axis1 {w : Nat} (idx : IVec S2048x2 w) (b : Fin 8) (s : Fin 2048) :
    (gather_S8x2048x2048_S2048x2_S8x2048_0_12_n_n_12_1_811.operandIdx (ix2 b s) idx 1).val = min (idx (ix2 s (0 : Fin 2))).toInt.toNat (2048 - 1) := by
  show gather_S8x2048x2048_S2048x2_S8x2048_0_12_n_n_12_1_811.start (ix2 b s) idx 1 + gather_S8x2048x2048_S2048x2_S8x2048_0_12_n_n_12_1_811.batchCoord (ix2 b s) 1 + gather_S8x2048x2048_S2048x2_S8x2048_0_12_n_n_12_1_811.offCoord (ix2 b s) 1 = _
  rw [GatherDims.batchCoord_eq_zero _ _ _ (show (1 : Fin S8x2048x2048.rank) ∉ gather_S8x2048x2048_S2048x2_S8x2048_0_12_n_n_12_1_811.operandBatchingDims by decide),
    GatherDims.offCoord_eq_zero _ _ _ (show (1 : Fin S8x2048x2048.rank) ∉ gather_S8x2048x2048_S2048x2_S8x2048_0_12_n_n_12_1_811.sKept by decide)]
  simp only [Nat.add_zero]
  unfold GatherDims.start
  rw [dif_pos (show (1 : Fin S8x2048x2048.rank) ∈ gather_S8x2048x2048_S2048x2_S8x2048_0_12_n_n_12_1_811.startIndexMap by decide)]
  have hsi : gather_S8x2048x2048_S2048x2_S8x2048_0_12_n_n_12_1_811.siIdx (ix2 b s) ⟨List.idxOf (1 : Fin S8x2048x2048.rank) gather_S8x2048x2048_S2048x2_S8x2048_0_12_n_n_12_1_811.startIndexMap,
      List.idxOf_lt_length_iff.2 (by decide)⟩ = ix2 s (0 : Fin 2) := by
    funext c; refine Fin.ext ?_
    match c with
    | ⟨0, _⟩ => rfl
    | ⟨1, _⟩ => rfl
  rw [hsi]
  rfl

/-- Axis 2 of the operand index at (b, s): column 1 of row s of the start indices, signed and clamped; collapsed, so no offset. -/
theorem diag_axis2 {w : Nat} (idx : IVec S2048x2 w) (b : Fin 8) (s : Fin 2048) :
    (gather_S8x2048x2048_S2048x2_S8x2048_0_12_n_n_12_1_811.operandIdx (ix2 b s) idx 2).val = min (idx (ix2 s (1 : Fin 2))).toInt.toNat (2048 - 1) := by
  show gather_S8x2048x2048_S2048x2_S8x2048_0_12_n_n_12_1_811.start (ix2 b s) idx 2 + gather_S8x2048x2048_S2048x2_S8x2048_0_12_n_n_12_1_811.batchCoord (ix2 b s) 2 + gather_S8x2048x2048_S2048x2_S8x2048_0_12_n_n_12_1_811.offCoord (ix2 b s) 2 = _
  rw [GatherDims.batchCoord_eq_zero _ _ _ (show (2 : Fin S8x2048x2048.rank) ∉ gather_S8x2048x2048_S2048x2_S8x2048_0_12_n_n_12_1_811.operandBatchingDims by decide),
    GatherDims.offCoord_eq_zero _ _ _ (show (2 : Fin S8x2048x2048.rank) ∉ gather_S8x2048x2048_S2048x2_S8x2048_0_12_n_n_12_1_811.sKept by decide)]
  simp only [Nat.add_zero]
  unfold GatherDims.start
  rw [dif_pos (show (2 : Fin S8x2048x2048.rank) ∈ gather_S8x2048x2048_S2048x2_S8x2048_0_12_n_n_12_1_811.startIndexMap by decide)]
  have hsi : gather_S8x2048x2048_S2048x2_S8x2048_0_12_n_n_12_1_811.siIdx (ix2 b s) ⟨List.idxOf (2 : Fin S8x2048x2048.rank) gather_S8x2048x2048_S2048x2_S8x2048_0_12_n_n_12_1_811.startIndexMap,
      List.idxOf_lt_length_iff.2 (by decide)⟩ = ix2 s (1 : Fin 2) := by
    funext c; refine Fin.ext ?_
    match c with
    | ⟨0, _⟩ => rfl
    | ⟨1, _⟩ => rfl
  rw [hsi]
  rfl

/-- The gather at (b, s) reads the operand at (b, r, c), with r and c the two start indices of row s, signed and clamped. -/
theorem gather_diag_apply {α : Type} {w : Nat} (x : S8x2048x2048.Idx → α) (idx : IVec S2048x2 w) (b : Fin 8) (s : Fin 2048) :
    Host.gather gather_S8x2048x2048_S2048x2_S8x2048_0_12_n_n_12_1_811 x idx (ix2 b s)
      = x (ix3 b (⟨min (idx (ix2 s (0 : Fin 2))).toInt.toNat (2048 - 1), by omega⟩ : Fin 2048) (⟨min (idx (ix2 s (1 : Fin 2))).toInt.toNat (2048 - 1), by omega⟩ : Fin 2048)) := by
  unfold Host.gather
  refine congrArg x (funext fun a => Fin.ext ?_)
  match a with
  | ⟨0, _⟩ => exact diag_axis0 idx b s
  | ⟨1, _⟩ => exact diag_axis1 idx b s
  | ⟨2, _⟩ => exact diag_axis2 idx b s

end Cert.Attn.Ref

end
-- ==== Proof.RefValue.lean ====
/-
  The reference program computes the specification.

  Its three einsums are the three projections; its scale 1 / √1024 is 1/32; its softmax down axis 1 is the
  column maximum, the shifted exponentials, their column sum and the quotient; its diagonal is a gather whose
  start indices are (s, s); the result is the diagonal weight broadcast along the features times the projected
  value.
-/
import proofs.«402531_j73443940761807_3_alg».proof.Proof.Gen.ReferenceIdeal.Read
import proofs.«402531_j73443940761807_3_alg».proof.Proof.Spec
import proofs.«402531_j73443940761807_3_alg».proof.Proof.RefGather
import Idealize.ShloMosaic.Lib.StableHlo.Predicate

noncomputable section

namespace Cert.Attn.Ref

open Idealize.ShloMosaic Idealize.ShloMosaic.ValueIdx Cert.ReferenceIdeal Cert.ReferenceIdeal.Gen
open Cert.ReferenceIdeal.Read

/-! ## Words and constants -/

/-- The word 0xFF800000 is −∞. -/
theorem ofBits_negInf : Ideal.ofBits .f32 0xFF800000#32 = (⊥ : EReal) := by
  simp [Ideal.ofBits, Ideal.ieee]

/-- The word 0x3F800000 is 1. -/
theorem ofBits_one : Ideal.ofBits .f32 0x3F800000#32 = ((1 : ℝ) : EReal) := by
  simp [Ideal.ofBits, Ideal.ieee, -EReal.coe_mul]; norm_num

/-- The word 0x44800000 is 1024. -/
theorem ofBits_1024 : Ideal.ofBits .f32 0x44800000#32 = ((1024 : ℝ) : EReal) := by
  simp [Ideal.ofBits, Ideal.ieee, -EReal.coe_mul]; norm_num

/-- The word 0x3D000000 is 1/32. -/
theorem ofBits_inv32 : Ideal.ofBits .f32 0x3D000000#32 = ((1 / 32 : ℝ) : EReal) := by
  simp [Ideal.ofBits, Ideal.ieee, -EReal.coe_mul]; norm_num

/-- The score scale the reference computes on scalars, 1 / √1024, is 1/32, the specification's scale. -/
theorem scale_eval :
    Ideal.div (Ideal.ofBits .f32 0x3F800000#32) (Ideal.sqrt (Ideal.ofBits .f32 0x44800000#32)) = Cert.Attn.scale := by
  have hs : Real.sqrt 1024 = 32 := by
    rw [show (1024 : ℝ) = 32 * 32 by norm_num]; exact Real.sqrt_mul_self (by norm_num)
  unfold Cert.Attn.scale
  rw [ofBits_one, ofBits_1024, ofBits_inv32, Ideal.sqrt_coe, if_neg (by norm_num : ¬ (1024 : ℝ) < 0), hs,
    Ideal.div_coe (by norm_num : (32 : ℝ) ≠ 0), ← EReal.coe_mul, one_mul]

/-- A number below 2048, as a 32-bit word, is not below zero as a signed integer. -/
theorem slt_zero_of_small (n : Nat) (hn : n < 2048) : IntOp.cmpi .slt (BitVec.ofNat 32 n) 0#32 = 0#1 := by
  apply eq_zero_of_ne_one
  intro h
  have ha : (BitVec.ofNat 32 n).toNat < 2 ^ 31 := by
    rw [BitVec.toNat_ofNat]; exact lt_of_le_of_lt (Nat.mod_le _ _) (lt_trans hn (by norm_num))
  have h' := (StableHlo.Predicate.slt_iff_toNat (a := BitVec.ofNat 32 n) (b := 0#32) ha (by decide)).1 h
  exact absurd h' (Nat.not_lt_zero _)

/-- Read signed and clamped into [0, 2047], the word of a number below 2048 is that number. -/
theorem clamp_small (n : Nat) (hn : n < 2048) : min (BitVec.ofNat 32 n).toInt.toNat (2048 - 1) = n := by
  rw [StableHlo.Predicate.toInt_ofNat_small n (lt_trans hn (by norm_num)), Int.toNat_natCast]
  omega

/-! ## The column maximum and the joined start indices -/

/-- The shape relation over which the column maximum's index is lifted. -/
theorem reduces_d1 : S8x2048x2048.Reduces [1] S8x2048 := by decide

/-- The reduced index (b, s) with row k put back on axis 1 is (b, k, s). -/
theorem lift_d1 (b : Fin 8) (s : Fin 2048) (k : Fin (S8x2048x2048.size 1)) :
    reduces_d1.lift (ix2 b s) k = ix3 b (⟨k.val, k.isLt⟩ : Fin 2048) s := by
  funext c; apply Fin.ext
  fin_cases c <;> rfl

/-- The reduce with a maximum body over axis 1, at (b, s), is the maximum from its initial value over the rows. -/
theorem reduceMax_apply (x : FVec Ideal S8x2048x2048 .f32) (init : FVec Ideal S_ .f32) (b : Fin 8) (s : Fin 2048) :
    Host.reduce FloatOps.maximumf x init reducesTo_S8x2048x2048_S8x2048_d1 h_S_ (ix2 b s)
      = (Finset.univ : Finset (Fin 2048)).fold max (init (Shape.Idx.first h_S_)) (fun i => x (ix3 b i s)) := by
  rw [Host.reduce_eq_fold_single FloatOps.maximumf x init reducesTo_S8x2048x2048_S8x2048_d1 reduces_d1 h_S_]
  have hf : (x ∘ reduces_d1.lift (ix2 b s)) = fun k : Fin 2048 => x (ix3 b k s) :=
    funext fun k => congrArg x (lift_d1 b s k)
  exact congrArg (fun f => Finset.fold max (init (Shape.Idx.first h_S_)) f (Finset.univ : Finset (Fin 2048))) hf

/-- Two [2048, 1] columns joined along axis 1, at (s, 0): the first column at (s, 0). -/
theorem concat_cols_left {α : Type} (x₁ x₂ : S2048x1.Idx → α) (s : Fin 2048) :
    concatenate S2048x2 1 [⟨S2048x1, x₁⟩, ⟨S2048x1, x₂⟩] concatenates_S2048x1_S2048x1_S2048x2_d1 (ix2 s (0 : Fin 2))
      = x₁ (ix2 s (0 : Fin 1)) :=
  concatenate_pair_apply_left (1 : Fin S2048x2.rank) x₁ x₂ concatenates_S2048x1_S2048x1_S2048x2_d1 (ix2 s (0 : Fin 2)) rfl
    (ix2 s (0 : Fin 1)) (fun c => by match c with | ⟨0, _⟩ => rfl | ⟨1, _⟩ => rfl)

/-- … and at (s, 1): the second column at (s, 0). -/
theorem concat_cols_right {α : Type} (x₁ x₂ : S2048x1.Idx → α) (s : Fin 2048) :
    concatenate S2048x2 1 [⟨S2048x1, x₁⟩, ⟨S2048x1, x₂⟩] concatenates_S2048x1_S2048x1_S2048x2_d1 (ix2 s (1 : Fin 2))
      = x₂ (ix2 s (0 : Fin 1)) :=
  concatenate_pair_apply_right (1 : Fin S2048x2.rank) x₁ x₂ concatenates_S2048x1_S2048x1_S2048x2_d1 (ix2 s (1 : Fin 2)) rfl rfl
    (ix2 s (0 : Fin 1)) (fun c hc => by match c, hc with | ⟨0, _⟩, _ => rfl | ⟨1, _⟩, hc => exact absurd (Fin.ext rfl) hc)
    (by first | rfl | decide)

/-- Row s of the start indices, first component: s (the iota is not negative, so the select keeps it). -/
theorem startRow_left (s : Fin 2048) : val_main_call0_v14 (F := Ideal) (ix2 s (0 : Fin 2)) = BitVec.ofNat 32 s.val := by
  unfold val_main_call0_v14
  rw [concat_cols_left, val_main_call0_v12_apply, val_main_call0_v6_apply, val_main_call0_v3_apply,
    val_main_call0_v0_apply, val_main_call0_v2_apply, val_main_call0_c_apply]
  show Scalar.select (IntOp.cmpi .slt (BitVec.ofNat 32 s.val) 0#32) _ (BitVec.ofNat 32 s.val) = _
  rw [slt_zero_of_small s.val s.isLt, select_zero]

/-- Row s of the start indices, second component: s likewise. -/
theorem startRow_right (s : Fin 2048) : val_main_call0_v14 (F := Ideal) (ix2 s (1 : Fin 2)) = BitVec.ofNat 32 s.val := by
  unfold val_main_call0_v14
  rw [concat_cols_right, val_main_call0_v13_apply, val_main_call0_v11_apply, val_main_call0_v8_apply,
    val_main_call0_v1_apply, val_main_call0_v7_apply, val_main_call0_c_1_apply]
  show Scalar.select (IntOp.cmpi .slt (BitVec.ofNat 32 s.val) 0#32) _ (BitVec.ofNat 32 s.val) = _
  rw [slt_zero_of_small s.val s.isLt, select_zero]

/-! ## Index equations: the stages' index functions at coordinates -/

theorem lidx_v0_ix3 (b : Fin 8) (s : Fin 2048) (g k : Fin 1024) : lidx_main_v0 (ix3 b s g) k = ix3 b s k :=
  funext fun a => Fin.ext (by match a with | ⟨0, _⟩ => rfl | ⟨1, _⟩ => rfl | ⟨2, _⟩ => rfl)
theorem ridx_v0_ix3 (b : Fin 8) (s : Fin 2048) (g k : Fin 1024) : ridx_main_v0 (ix3 b s g) k = ix2 g k :=
  funext fun a => Fin.ext (by match a with | ⟨0, _⟩ => rfl | ⟨1, _⟩ => rfl)
theorem lidx_v1_ix3 (b : Fin 8) (s : Fin 2048) (g k : Fin 1024) : lidx_main_v1 (ix3 b s g) k = ix3 b s k :=
  funext fun a => Fin.ext (by match a with | ⟨0, _⟩ => rfl | ⟨1, _⟩ => rfl | ⟨2, _⟩ => rfl)
theorem ridx_v1_ix3 (b : Fin 8) (s : Fin 2048) (g k : Fin 1024) : ridx_main_v1 (ix3 b s g) k = ix2 g k :=
  funext fun a => Fin.ext (by match a with | ⟨0, _⟩ => rfl | ⟨1, _⟩ => rfl)
theorem lidx_v2_ix3 (b : Fin 8) (s : Fin 2048) (g k : Fin 1024) : lidx_main_v2 (ix3 b s g) k = ix3 b s k :=
  funext fun a => Fin.ext (by match a with | ⟨0, _⟩ => rfl | ⟨1, _⟩ => rfl | ⟨2, _⟩ => rfl)
theorem ridx_v2_ix3 (b : Fin 8) (s : Fin 2048) (g k : Fin 1024) : ridx_main_v2 (ix3 b s g) k = ix2 g k :=
  funext fun a => Fin.ext (by match a with | ⟨0, _⟩ => rfl | ⟨1, _⟩ => rfl)
theorem lidx_v5_ix3 (b : Fin 8) (i s : Fin 2048) (k : Fin 1024) : lidx_main_v5 (ix3 b i s) k = ix3 b i k :=
  funext fun a => Fin.ext (by match a with | ⟨0, _⟩ => rfl | ⟨1, _⟩ => rfl | ⟨2, _⟩ => rfl)
theorem ridx_v5_ix3 (b : Fin 8) (i s : Fin 2048) (k : Fin 1024) : ridx_main_v5 (ix3 b i s) k = ix3 b s k :=
  funext fun a => Fin.ext (by match a with | ⟨0, _⟩ => rfl | ⟨1, _⟩ => rfl | ⟨2, _⟩ => rfl)
theorem idx_v11_v12 (b : Fin 8) (i s : Fin 2048) : idx_main_v11 (idx_main_v12 (ix3 b i s)) = ix2 b s :=
  funext fun a => Fin.ext (by match a with | ⟨0, _⟩ => rfl | ⟨1, _⟩ => rfl)
theorem idx_v16_v17 (b : Fin 8) (i s : Fin 2048) : idx_main_v16 (idx_main_v17 (ix3 b i s)) = ix2 b s :=
  funext fun a => Fin.ext (by match a with | ⟨0, _⟩ => rfl | ⟨1, _⟩ => rfl)
theorem idx_v15_ix2 (b : Fin 8) (s k : Fin 2048) : idx_main_v15 (ix2 b s) k = ix3 b k s :=
  funext fun a => Fin.ext (by match a with | ⟨0, _⟩ => rfl | ⟨1, _⟩ => rfl | ⟨2, _⟩ => rfl)
theorem idx_v20_v21 (b : Fin 8) (s : Fin 2048) (g : Fin 1024) : idx_main_v20 (idx_main_v21 (ix3 b s g)) = ix2 b s :=
  funext fun a => Fin.ext (by match a with | ⟨0, _⟩ => rfl | ⟨1, _⟩ => rfl)

/-! ## The stages at coordinates -/

section Stages
variable (x0 x1 x2 : (⟨S8x2048x1024, .f32⟩ : BufTy).Contents (Elt Ideal)) (x3 x4 x5 : (⟨S1024x1024, .f32⟩ : BufTy).Contents (Elt Ideal))

/-- The first einsum is the query projection. -/
theorem v0_at (b : Fin 8) (s : Fin 2048) (g : Fin 1024) : val_main_v0 (F := Ideal) x0 x3 (ix3 b s g) = proj x0 x3 b s g := by
  rw [val_main_v0_apply]
  unfold Cert.Attn.proj
  exact Finset.sum_congr rfl fun k _ => by rw [lidx_v0_ix3, ridx_v0_ix3]

/-- The second einsum is the key projection. -/
theorem v1_at (b : Fin 8) (s : Fin 2048) (g : Fin 1024) : val_main_v1 (F := Ideal) x1 x4 (ix3 b s g) = proj x1 x4 b s g := by
  rw [val_main_v1_apply]
  unfold Cert.Attn.proj
  exact Finset.sum_congr rfl fun k _ => by rw [lidx_v1_ix3, ridx_v1_ix3]

/-- The third einsum is the value projection. -/
theorem v2_at (b : Fin 8) (s : Fin 2048) (g : Fin 1024) : val_main_v2 (F := Ideal) x2 x5 (ix3 b s g) = proj x2 x5 b s g := by
  rw [val_main_v2_apply]
  unfold Cert.Attn.proj
  exact Finset.sum_congr rfl fun k _ => by rw [lidx_v2_ix3, ridx_v2_ix3]

/-- The scalar the scores are multiplied by is the specification's scale. -/
theorem v4_at (i : S_.Idx) : val_main_v4 (F := Ideal) i = scale := by
  rw [val_main_v4_apply, val_main_v3_apply, val_main_cst_apply, val_main_cst_0_apply]
  exact scale_eval

/-- The scaled scores. -/
theorem v7_at (b : Fin 8) (i s : Fin 2048) : val_main_v7 (F := Ideal) x0 x1 x3 x4 (ix3 b i s) = score x0 x1 x3 x4 b i s := by
  rw [val_main_v7_apply, val_main_v5_apply, val_main_v6_apply, v4_at]
  unfold Cert.Attn.score
  rw [Ideal.mulf_def]
  refine congrArg (· * scale) (Finset.sum_congr rfl fun k _ => ?_)
  rw [lidx_v5_ix3, ridx_v5_ix3, v0_at, v1_at]

/-- The column maximum. -/
theorem v10_at (b : Fin 8) (s : Fin 2048) : val_main_v10 (F := Ideal) x0 x1 x3 x4 (ix2 b s) = colMax x0 x1 x3 x4 b s := by
  rw [val_main_v10_apply, val_main_v9_apply, val_main_cst_2_apply]
  unfold val_main_v8
  rw [reduceMax_apply, val_main_cst_1_apply]
  simp only [Ideal.ofBits_def, Ideal.maximumf_def, ofBits_negInf]
  rw [max_eq_right bot_le]
  unfold Cert.Attn.colMax
  exact congrArg (fun f => Finset.fold max ⊥ f (Finset.univ : Finset (Fin 2048))) (funext fun i => v7_at x0 x1 x3 x4 b i s)

/-- The shifted exponentials. -/
theorem v14_at (b : Fin 8) (i s : Fin 2048) :
    val_main_v14 (F := Ideal) x0 x1 x3 x4 (ix3 b i s) = Ideal.exp (score x0 x1 x3 x4 b i s - colMax x0 x1 x3 x4 b s) := by
  rw [val_main_v14_apply, val_main_v13_apply, val_main_v12_apply, val_main_v11_apply, idx_v11_v12, v7_at, v10_at]
  rfl

/-- The column sum of the shifted exponentials. -/
theorem v15_at (b : Fin 8) (s : Fin 2048) : val_main_v15 (F := Ideal) x0 x1 x3 x4 (ix2 b s) = colSum x0 x1 x3 x4 b s := by
  rw [val_main_v15_apply, val_main_cst_3_apply, Ideal.ofBits_def, Ideal.ofBits_zero_f32, zero_add]
  unfold Cert.Attn.colSum
  exact Finset.sum_congr rfl fun k _ => by rw [idx_v15_ix2, v14_at]

/-- The softmax weights. -/
theorem v18_at (b : Fin 8) (i s : Fin 2048) :
    val_main_v18 (F := Ideal) x0 x1 x3 x4 (ix3 b i s)
      = Ideal.div (Ideal.exp (score x0 x1 x3 x4 b i s - colMax x0 x1 x3 x4 b s)) (colSum x0 x1 x3 x4 b s) := by
  rw [val_main_v18_apply, val_main_v17_apply, val_main_v16_apply, idx_v16_v17, v14_at, v15_at]
  rfl

/-- The gather takes the diagonal: at (b, s) the weight at (b, s, s). -/
theorem v19_at (b : Fin 8) (s : Fin 2048) :
    val_main_v19 (F := Ideal) x0 x1 x3 x4 (ix2 b s) = val_main_v18 (F := Ideal) x0 x1 x3 x4 (ix3 b s s) := by
  unfold val_main_v19
  rw [gather_diag_apply]
  refine congrArg _ (funext fun a => ?_)
  match a with
  | ⟨0, _⟩ => rfl
  | ⟨1, _⟩ =>
    exact Fin.ext (by
      show min (val_main_call0_v14 (F := Ideal) (ix2 s (0 : Fin 2))).toInt.toNat (2048 - 1) = s.val
      rw [startRow_left, clamp_small _ s.isLt])
  | ⟨2, _⟩ =>
    exact Fin.ext (by
      show min (val_main_call0_v14 (F := Ideal) (ix2 s (1 : Fin 2))).toInt.toNat (2048 - 1) = s.val
      rw [startRow_right, clamp_small _ s.isLt])

end Stages

/-- The reference's last stage, read at (b, s, g), is the specification there. -/
theorem ref_apply (x0 x1 x2 : (⟨S8x2048x1024, .f32⟩ : BufTy).Contents (Elt Ideal)) (x3 x4 x5 : (⟨S1024x1024, .f32⟩ : BufTy).Contents (Elt Ideal))
    (b : Fin 8) (s : Fin 2048) (g : Fin 1024) :
    Cert.ReferenceIdeal.Read.val_main_v22 (F := Ideal) x0 x1 x2 x3 x4 x5 (ix3 b s g)
      = Cert.Attn.attnAt x0 x1 x2 x3 x4 x5 b s g := by
  rw [val_main_v22_apply, val_main_v21_apply, val_main_v20_apply, idx_v20_v21, v19_at, v18_at, v2_at]
  rfl

/-- The reference's last stage is the specification. -/
theorem ref_eq (x0 x1 x2 : (⟨S8x2048x1024, .f32⟩ : BufTy).Contents (Elt Ideal)) (x3 x4 x5 : (⟨S1024x1024, .f32⟩ : BufTy).Contents (Elt Ideal)) :
    Cert.ReferenceIdeal.Read.val_main_v22 (F := Ideal) x0 x1 x2 x3 x4 x5 = Cert.Attn.attn x0 x1 x2 x3 x4 x5 := by
  funext i
  rw [eq_ix3 i]
  exact ref_apply x0 x1 x2 x3 x4 x5 (i 0) (i 1) (i 2)

end Cert.Attn.Ref

end
-- ==== Proof.LoopDefs.lean ====
/-
  The attention body's running maximum and running sum, named.

  The body holds one tile of 512 projected key rows and walks the batch's 2048 projected query rows in
  four chunks of 512.  Chunk k is rows 512k … 512k+511 of the resident query buffer; one trip takes the
  running pair (m, l) to (m', exp (m − m') · l + Σ exp (score − m')) with m' the larger of m and the
  chunk's row maxima.  The pair starts at (−∞, 0).  After the loop the tile's own chunk (the diagonal
  one, at the point's second grid coordinate) is read once more for the diagonal score.
-/
import proofs.«402531_j73443940761807_3_alg».proof.Proof.Gen.KernelIdeal.Skeleton
import Idealize.ShloMosaic.Lib.Pipeline.FrameBody

noncomputable section

namespace Cert.Attn.Body

open Idealize.ShloMosaic Idealize.SL.Sem Cert.KernelIdeal Cert.KernelIdeal.Gen

variable {F : FTy → Type} [FloatOps F]

/-- Chunk `k` of the resident projected-query buffer: its rows 512k … 512k+511. -/
def qchunk (x2 : Vec F S1x2048x1024 .bf16) (k : Fin k1_t1_loop.trips) : Vec F S1x512x1024 .bf16 :=
  View.ld x2 (Rect.unit (s := S1x2048x1024) (k1_off1 k) S1x512x1024.size (k1_off1_inb k))

/-- The chunk on the diagonal: the rows of the query buffer that face the key tile of grid point `i`. -/
def qdiag (i : grid1.Coords) (x2 : Vec F S1x2048x1024 .bf16) : Vec F S1x512x1024 .bf16 :=
  View.ld x2 (Rect.unit (s := S1x2048x1024) (k1_off2 i) S1x512x1024.size (k1_off2_inb i))

/-- One trip: the running maximum and the rescaled running sum after chunk `k`. -/
def mlStep (x0 : Vec F S1x512x1024 .f32) (x1 : Vec F S1024x1024 .bf16) (x2 : Vec F S1x2048x1024 .bf16)
    (k : Fin k1_t1_loop.trips) (acc : FVec F S512x1 .f32 × FVec F S512x1 .f32) : FVec F S512x1 .f32 × FVec F S512x1 .f32 :=
  (k1_pay6 x0 x1 acc.1 (qchunk x2 k), k1_pay7 x0 x1 acc.1 acc.2 (qchunk x2 k))

/-- The running pair before trip `n` (past the last trip it stays). -/
def mlAt (x0 : Vec F S1x512x1024 .f32) (x1 : Vec F S1024x1024 .bf16) (x2 : Vec F S1x2048x1024 .bf16) :
    ℕ → FVec F S512x1 .f32 × FVec F S512x1 .f32
  | 0 => (k1_pay3 (F := F), k1_pay4 (F := F))
  | n + 1 => if h : n < k1_t1_loop.trips then mlStep x0 x1 x2 ⟨n, h⟩ (mlAt x0 x1 x2 n) else mlAt x0 x1 x2 n

/-- What one grid point stores into its output block, from its five input blocks. -/
def blockOut (i : grid1.Coords) (x0 : Vec F S1x512x1024 .f32) (x1 : Vec F S1024x1024 .bf16) (x2 : Vec F S1x2048x1024 .bf16)
    (x3 : Vec F S1x512x1024 .f32) (x4 : Vec F S1024x1024 .bf16) : FVec F S1x512x1024 .f32 :=
  k1_pay1 (k1_pay8 x0 x1 (mlAt x0 x1 x2 k1_t1_loop.trips).1 (mlAt x0 x1 x2 k1_t1_loop.trips).2 (qdiag i x2) x3 x4)

end Cert.Attn.Body

end
-- ==== Proof.Online.lean ====
/-
  The softmax normaliser taken chunk by chunk is the one taken at once.

  For a row of 2048 real scores a, walk it in four chunks of 512 carrying a running maximum m and a
  running sum l, from (−∞, 0):   m' = max m (max of the chunk),   l' = exp (m − m') · l + Σ_chunk exp (a − m').
  After the four chunks m is the row's maximum and l is Σ_i exp (a i − m): each earlier term
  exp (a i − m) is carried to exp (a i − m') by the factor exp (m − m'), since every quantity is a real
  number once a chunk has been seen, and before that the sum is empty and the factor exp (−∞) = 0 meets 0.
-/
import Idealize.ShloMosaic.PureOps.Ideal
import Mathlib.Data.Finset.Lattice.Fold
import Mathlib.Data.EReal.Operations
import Mathlib.Algebra.BigOperators.Group.Finset.Basic
import Mathlib.Analysis.SpecialFunctions.Exp

noncomputable section

namespace Cert.Attn.Online

open Idealize.ShloMosaic

/-- Row index of entry `j` of chunk `k`. -/
def chunkIdx (k : Fin 4) (j : Fin 512) : Fin 2048 := ⟨512 * k.val + j.val, by omega⟩

/-- One chunk: the running maximum and the rescaled running sum. -/
def step (a : Fin 2048 → EReal) (k : Fin 4) (ml : EReal × EReal) : EReal × EReal :=
  (max ml.1 ((Finset.univ : Finset (Fin 512)).fold max ⊥ (fun j => a (chunkIdx k j))),
   Ideal.exp (ml.1 - max ml.1 ((Finset.univ : Finset (Fin 512)).fold max ⊥ (fun j => a (chunkIdx k j)))) * ml.2
     + ∑ j : Fin 512, Ideal.exp (a (chunkIdx k j) - max ml.1 ((Finset.univ : Finset (Fin 512)).fold max ⊥ (fun j => a (chunkIdx k j)))))

/-- The four chunks in order, from (−∞, 0). -/
def run (a : Fin 2048 → EReal) : EReal × EReal := step a 3 (step a 2 (step a 1 (step a 0 (⊥, 0))))

/-- Folding `max` from `⊥` is the finite supremum. -/
theorem fold_max_eq_sup {ι : Type*} (s : Finset ι) (f : ι → EReal) :
    s.fold max ⊥ f = s.sup f := rfl

/-- The coercion of a finite real sum is the sum of the coercions. -/
theorem coe_sum {ι : Type*} (s : Finset ι) (f : ι → ℝ) :
    ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

/-- The supremum of finitely many reals over a nonempty index set is a real. -/
theorem sup_coe_real {ι : Type*} (s : Finset ι) (hs : s.Nonempty) (α : ι → ℝ) :
    ∃ μ : ℝ, s.sup (fun i => (α i : EReal)) = (μ : EReal) := by
  obtain ⟨i, _, hi⟩ := Finset.exists_mem_eq_sup s hs (fun i => (α i : EReal))
  exact ⟨α i, hi⟩

/-- A sum of exponentials of real differences, as the coercion of a real sum. -/
theorem sum_exp_coe {ι : Type*} (s : Finset ι) (α : ι → ℝ) (μ : ℝ) :
    ∑ i ∈ s, Ideal.exp ((α i : EReal) - (μ : EReal)) = ((∑ i ∈ s, Real.exp (α i - μ) : ℝ) : EReal) := by
  rw [coe_sum]
  refine Finset.sum_congr rfl (fun i _ => ?_)
  rw [← EReal.coe_sub, Ideal.exp_coe]

/-- The value of a chunk's row index. -/
theorem chunkIdx_val (k : Fin 4) (j : Fin 512) : (chunkIdx k j).val = 512 * k.val + j.val := rfl

theorem chunkIdx_injective (k : Fin 4) : Function.Injective (chunkIdx k) := by
  intro j j' h
  have := congrArg Fin.val h
  rw [chunkIdx_val, chunkIdx_val] at this
  exact Fin.ext (by omega)

/-- `chunkIdx k` as an embedding. -/
def chunkEmb (k : Fin 4) : Fin 512 ↪ Fin 2048 := ⟨chunkIdx k, chunkIdx_injective k⟩

theorem chunkEmb_apply (k : Fin 4) (j : Fin 512) : chunkEmb k j = chunkIdx k j := rfl

/-- The rows of chunk `k`. -/
def chunk (k : Fin 4) : Finset (Fin 2048) := Finset.univ.map (chunkEmb k)

/-- One chunk carries the pair (maximum, normaliser) of a set `S` of seen rows, disjoint from the
    chunk, to the pair of `S` with the chunk added: for empty `S` the carried sum is `0`; otherwise both
    maxima are reals and `exp (μ − μ') · exp (α i − μ) = exp (α i − μ')`. -/
theorem step_union (α : Fin 2048 → ℝ) (k : Fin 4) (S : Finset (Fin 2048))
    (hd : Disjoint S (chunk k)) :
    step (fun i => (α i : EReal)) k
        (S.sup (fun i => (α i : EReal)),
         ∑ i ∈ S, Ideal.exp ((α i : EReal) - S.sup (fun i => (α i : EReal))))
      = ((S ∪ chunk k).sup (fun i => (α i : EReal)),
         ∑ i ∈ S ∪ chunk k,
           Ideal.exp ((α i : EReal) - (S ∪ chunk k).sup (fun i => (α i : EReal)))) := by
  have hC : (chunk k).Nonempty := ⟨chunkEmb k 0, Finset.mem_map_of_mem _ (Finset.mem_univ _)⟩
  have hfold : (Finset.univ : Finset (Fin 512)).fold max ⊥ (fun j => ((α (chunkIdx k j) : ℝ) : EReal))
      = (chunk k).sup (fun i => (α i : EReal)) := by
    rw [chunk, Finset.sup_map]; rfl
  have hm : max (S.sup (fun i => (α i : EReal))) ((chunk k).sup (fun i => (α i : EReal)))
      = (S ∪ chunk k).sup (fun i => (α i : EReal)) := (Finset.sup_union).symm
  obtain ⟨μ', hμ'⟩ := sup_coe_real (S ∪ chunk k) (hC.mono Finset.subset_union_right) α
  unfold step
  simp only [hfold, hm]
  refine Prod.ext rfl ?_
  simp only
  rw [Finset.sum_union hd]
  have hsumC : ∑ j : Fin 512, Ideal.exp ((α (chunkIdx k j) : EReal) - (S ∪ chunk k).sup (fun i => (α i : EReal)))
      = ∑ i ∈ chunk k, Ideal.exp ((α i : EReal) - (S ∪ chunk k).sup (fun i => (α i : EReal))) := by
    rw [chunk, Finset.sum_map]; rfl
  rw [hsumC]
  congr 1
  rcases S.eq_empty_or_nonempty with hS | hS
  · subst hS; simp
  · obtain ⟨μ, hμ⟩ := sup_coe_real S hS α
    rw [hμ, hμ', sum_exp_coe, sum_exp_coe, ← EReal.coe_sub, Ideal.exp_coe, ← EReal.coe_mul,
      Finset.mul_sum]
    congr 1
    refine Finset.sum_congr rfl (fun i _ => ?_)
    rw [← Real.exp_add]
    congr 1
    ring

/-- Row `i` lies in chunk `k` exactly when `512 k ≤ i < 512 k + 512`. -/
theorem mem_chunk (k : Fin 4) (i : Fin 2048) :
    i ∈ chunk k ↔ 512 * k.val ≤ i.val ∧ i.val < 512 * k.val + 512 := by
  simp only [chunk, Finset.mem_map, Finset.mem_univ, true_and, chunkEmb_apply]
  constructor
  · rintro ⟨j, rfl⟩
    rw [chunkIdx_val]
    omega
  · rintro ⟨h1, h2⟩
    exact ⟨⟨i.val - 512 * k.val, by omega⟩, Fin.ext (by
      show 512 * k.val + (i.val - 512 * k.val) = i.val
      omega)⟩

theorem mem_chunk0 (i : Fin 2048) : i ∈ chunk 0 ↔ i.val < 512 := by
  rw [mem_chunk]; show 512 * 0 ≤ i.val ∧ i.val < 512 * 0 + 512 ↔ _; omega

theorem mem_chunk1 (i : Fin 2048) : i ∈ chunk 1 ↔ 512 ≤ i.val ∧ i.val < 1024 := by
  rw [mem_chunk]; show 512 * 1 ≤ i.val ∧ i.val < 512 * 1 + 512 ↔ _; omega

theorem mem_chunk2 (i : Fin 2048) : i ∈ chunk 2 ↔ 1024 ≤ i.val ∧ i.val < 1536 := by
  rw [mem_chunk]; show 512 * 2 ≤ i.val ∧ i.val < 512 * 2 + 512 ↔ _; omega

theorem mem_chunk3 (i : Fin 2048) : i ∈ chunk 3 ↔ 1536 ≤ i.val := by
  rw [mem_chunk]; show 512 * 3 ≤ i.val ∧ i.val < 512 * 3 + 512 ↔ _; omega

/-- Chunk by chunk or at once: the same maximum and the same normaliser, for a row of real numbers. -/
theorem run_eq (a : Fin 2048 → EReal) (hfin : ∀ i, ∃ r : ℝ, a i = (r : EReal)) :
    run a = ((Finset.univ : Finset (Fin 2048)).fold max ⊥ a,
             ∑ i : Fin 2048, Ideal.exp (a i - (Finset.univ : Finset (Fin 2048)).fold max ⊥ a)) := by
  choose α hα using hfin
  obtain rfl : a = fun i => (α i : EReal) := funext hα
  have h0 : ((⊥ : EReal), (0 : EReal))
      = ((∅ : Finset (Fin 2048)).sup (fun i => (α i : EReal)),
         ∑ i ∈ (∅ : Finset (Fin 2048)),
           Ideal.exp ((α i : EReal) - (∅ : Finset (Fin 2048)).sup (fun i => (α i : EReal)))) := by
    simp
  have d0 : Disjoint (∅ : Finset (Fin 2048)) (chunk 0) := Finset.disjoint_empty_left _
  have d1 : Disjoint ((∅ : Finset (Fin 2048)) ∪ chunk 0) (chunk 1) := by
    rw [Finset.disjoint_left]
    intro i
    simp only [Finset.mem_union, Finset.notMem_empty, false_or, mem_chunk0, mem_chunk1]
    omega
  have d2 : Disjoint ((∅ : Finset (Fin 2048)) ∪ chunk 0 ∪ chunk 1) (chunk 2) := by
    rw [Finset.disjoint_left]
    intro i
    simp only [Finset.mem_union, Finset.notMem_empty, false_or, mem_chunk0, mem_chunk1, mem_chunk2]
    omega
  have d3 : Disjoint ((∅ : Finset (Fin 2048)) ∪ chunk 0 ∪ chunk 1 ∪ chunk 2) (chunk 3) := by
    rw [Finset.disjoint_left]
    intro i
    simp only [Finset.mem_union, Finset.notMem_empty, false_or, mem_chunk0, mem_chunk1, mem_chunk2,
      mem_chunk3]
    omega
  have hU : (∅ : Finset (Fin 2048)) ∪ chunk 0 ∪ chunk 1 ∪ chunk 2 ∪ chunk 3 = Finset.univ := by
    refine Finset.eq_univ_iff_forall.mpr (fun i => ?_)
    simp only [Finset.mem_union, Finset.notMem_empty, false_or, mem_chunk0, mem_chunk1, mem_chunk2,
      mem_chunk3]
    omega
  rw [run, h0, step_union α 0 _ d0, step_union α 1 _ d1, step_union α 2 _ d2, step_union α 3 _ d3, hU]
  rfl

end Cert.Attn.Online

end
-- ==== Proof.BodyRun.lean ====
/-
  What one grid point of the attention call leaves in its output block.

  The body's stores are one whole-block store; its payload reads the key tile, the two weights, the value tile and
  the resident query buffer, the last both chunk by chunk inside the counted loop (whose carried pair is the running
  maximum and running sum of LoopDefs) and once more at the diagonal chunk.  Opened once here, the block is
  `Body.blockOut` of the point's five input blocks.
-/
import proofs.«402531_j73443940761807_3_alg».proof.Proof.Gen.KernelIdeal.Frame
import proofs.«402531_j73443940761807_3_alg».proof.Proof.LoopDefs
import Idealize.ShloMosaic.Lib.ValueIdx
import Idealize.ShloMosaic.Lib.Pipeline.Value

set_option maxRecDepth 16384

noncomputable section

namespace Cert.Attn.Body

open Idealize.ShloMosaic Idealize.ShloMosaic.TcCoe Idealize.ShloMosaic.ValueIdx Idealize.SL.Sem
open Cert.KernelIdeal Cert.KernelIdeal.Gen

variable {F : FTy → Type} [FloatOps F]

/-- The zero offsets of a rank-3 block, however spelt. -/
theorem hz3 : (![0, 0, 0] : Fin 3 → Nat) = fun _ => 0 := funext fun a => by fin_cases a <;> rfl

/-- The zero offsets of a rank-2 block. -/
theorem hz2 : (![0, 0] : Fin 2 → Nat) = fun _ => 0 := funext fun a => by fin_cases a <;> rfl

/-- One trip of the counted loop, opened once: from the carried pair it yields the running maximum and the
    rescaled running sum after chunk `k` of the query buffer. -/
theorem tripR_eq (c : Dev nD) (i : grid1.Coords) (arg2 : Memref sig .tc .vmem S1x512x1024 .f32) (harg2 : arg2.IsWhole) (arg3 : Memref sig .tc .vmem S1024x1024 .bf16) (harg3 : arg3.IsWhole) (arg4 : Memref sig .tc .vmem S1x2048x1024 .bf16) (harg4 : arg4.IsWhole) (arg5 : Memref sig .tc .vmem S1x512x1024 .f32) (harg5 : arg5.IsWhole) (arg6 : Memref sig .tc .vmem S1024x1024 .bf16) (harg6 : arg6.IsWhole) (arg7 : Memref sig .tc .vmem S1x512x1024 .f32) (harg7 : arg7.IsWhole)
    (v0 : Vec F S1x512x1024 .f32) (v3 : Vec F S1024x1024 .bf16) (x2 : Vec F S1x2048x1024 .bf16)
    (k : Fin k1_t1_loop.trips) (acc : FVec F S512x1 .f32 × FVec F S512x1 .f32) :
    tripR_k1_t1 (F := F) Variants.none c none i arg2 harg2 arg3 harg3 arg4 harg4 arg5 harg5 arg6 harg6 arg7 harg7 v0 v3 (harg4.unread x2) k acc = mlStep v0 v3 x2 k acc := by
  unfold tripR_k1_t1 trip_k1_t1
  dsimp only
  simp only [View.readAt_eq_ld, harg4.read_unread]
  rfl

/-- The loop's carried pair before trip `n` is the named running pair, by induction on the trips. -/
theorem st_eq_mlAt (c : Dev nD) (i : grid1.Coords) (arg2 : Memref sig .tc .vmem S1x512x1024 .f32) (harg2 : arg2.IsWhole) (arg3 : Memref sig .tc .vmem S1024x1024 .bf16) (harg3 : arg3.IsWhole) (arg4 : Memref sig .tc .vmem S1x2048x1024 .bf16) (harg4 : arg4.IsWhole) (arg5 : Memref sig .tc .vmem S1x512x1024 .f32) (harg5 : arg5.IsWhole) (arg6 : Memref sig .tc .vmem S1024x1024 .bf16) (harg6 : arg6.IsWhole) (arg7 : Memref sig .tc .vmem S1x512x1024 .f32) (harg7 : arg7.IsWhole)
    (v0 : Vec F S1x512x1024 .f32) (v3 : Vec F S1024x1024 .bf16) (x2 : Vec F S1x2048x1024 .bf16) (n : ℕ) :
    st_k1_t1 (F := F) Variants.none c none i arg2 harg2 arg3 harg3 arg4 harg4 arg5 harg5 arg6 harg6 arg7 harg7 v0 v3 (harg4.unread x2) (k1_pay3, k1_pay4) n = mlAt v0 v3 x2 n := by
  induction n with
  | zero => rfl
  | succ n ih =>
    rw [st_k1_t1.eq_2, mlAt, ih]
    unfold st_k1_t1Step
    split
    · exact tripR_eq c i arg2 harg2 arg3 harg3 arg4 harg4 arg5 harg5 arg6 harg6 arg7 harg7 v0 v3 x2 _ _
    · rfl

set_option maxHeartbeats 1000000 in
/-- The body's one whole-block store leaves its payload: the loads through whole rectangles read the blocks
    themselves, the loop's result is the running pair after the last trip, and the diagonal load is the
    diagonal chunk. -/
theorem out1_A_5_eq (c : Dev nD) (i : grid1.Coords) (arg2 : Memref sig .tc .vmem S1x512x1024 .f32) (harg2 : arg2.IsWhole) (arg3 : Memref sig .tc .vmem S1024x1024 .bf16) (harg3 : arg3.IsWhole) (arg4 : Memref sig .tc .vmem S1x2048x1024 .bf16) (harg4 : arg4.IsWhole) (arg5 : Memref sig .tc .vmem S1x512x1024 .f32) (harg5 : arg5.IsWhole) (arg6 : Memref sig .tc .vmem S1024x1024 .bf16) (harg6 : arg6.IsWhole) (arg7 : Memref sig .tc .vmem S1x512x1024 .f32) (harg7 : arg7.IsWhole)
    (x0 : Vec F S1x512x1024 .f32) (x1 : Vec F S1024x1024 .bf16) (x2 : Vec F S1x2048x1024 .bf16) (x3 : Vec F S1x512x1024 .f32) (x4 : Vec F S1024x1024 .bf16) :
    out1_A_5 c i arg2 harg2 arg3 harg3 arg4 harg4 arg5 harg5 arg6 harg6 arg7 harg7 x0 x1 x2 x3 x4 = blockOut i x0 x1 x2 x3 x4 := by
  unfold out1_A_5
  rw [View.read_writes_eq_canon _ _ _ (cover1_A_5 c i arg2 harg2 arg3 harg3 arg4 harg4 arg5 harg5 arg6 harg6 arg7 harg7 x0 x1 x2 x3 x4)]
  unfold kernelRun1_A
  dsimp only
  sl_unfold_run_names
  rw [View.canon_unit_zero hz3]
  simp only [View.readAt_eq_ld, harg2.read_unread, harg3.read_unread, harg4.read_unread, harg5.read_unread, harg6.read_unread,
    View.ld_unit_zero (S := S1x512x1024) hz3, View.ld_unit_zero (S := S1024x1024) hz2]
  rw [st_eq_mlAt c i arg2 harg2 arg3 harg3 arg4 harg4 arg5 harg5 arg6 harg6 arg7 harg7 x0 x1 x2]
  rfl

variable (V : (c : Dev nD) → (b : Ref sig .tc) → Buf (Elt F) ((c : Thread nD τ).loc b))

/-- The output block after the body at point `t` is the named function of the point's input blocks. -/
theorem outsAt1_eq (c : Dev nD) (t : Fin cfg1.N) :
    outsAt1 V c t
      = blockOut (grid1.coords t) (iblk1 V c 0 t) (iblk1 V c 1 t) (iblk1 V c 2 t) (iblk1 V c 3 t) (iblk1 V c 4 t) := by
  unfold outsAt1
  exact out1_A_5_eq c (grid1.coords t) (ms1_0 t) (hs1_0 t) (ms1_1 t) (hs1_1 t) (ms1_2 t) (hs1_2 t) (ms1_3 t) (hs1_3 t)
    (ms1_4 t) (hs1_4 t) (ms1_5 t) (hs1_5 t) (iblk1 V c 0 t) (iblk1 V c 1 t) (iblk1 V c 2 t) (iblk1 V c 3 t) (iblk1 V c 4 t)

end Cert.Attn.Body

end
-- ==== Proof.BodyValue.lean ====
/-
  The attention body's block, entry by entry, over the extended reals.

  Row r of the key tile is projected, k_r = Σ_f key[r,f] · wkT[f,·]; against query row i' its scaled score is
  (Σ_j k_r[j] · qT[i',j]) / 32.  The loop's carried pair is the chunk-by-chunk running maximum and running sum of
  that row of scores (Online.run); the diagonal score is the score against query row 512·so + r; the stored entry is
  exp (diagonal − m) / l times the projected value Σ_f value[r,f] · wvT[f,g].
-/
import proofs.«402531_j73443940761807_3_alg».proof.Proof.LoopDefs
import proofs.«402531_j73443940761807_3_alg».proof.Proof.Online
import proofs.«402531_j73443940761807_3_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.Attn.Body

open Idealize.ShloMosaic Idealize.ShloMosaic.TcCoe Idealize.ShloMosaic.ValueIdx Idealize.SL.Sem
open Cert.KernelIdeal Cert.KernelIdeal.Gen

/-- The scaled score of projected key row `r` of the tile against row `i'` of the resident projected-query buffer. -/
def rowScore (x0 : FVec Ideal S1x512x1024 .f32) (x1 : FVec Ideal S1024x1024 .bf16) (x2 : FVec Ideal S1x2048x1024 .bf16)
    (r : Fin 512) (i' : Fin 2048) : EReal :=
  (∑ j : Fin 1024, (∑ f : Fin 1024, x0 (ix3 0 r f) * x1 (ix2 f j)) * x2 (ix3 0 i' j)) * Cert.Attn.scale

/-! ## The two contractions read at an index -/

/-- Left operand of the projection's product, row axis: the result's row. -/
theorem projL_0 (i : S512x1024.Idx) (q : dot_S512x1024_S1024x1024_S512x1024_1_0_0_1_n_n.contr.Idx) :
    (dot_S512x1024_S1024x1024_S512x1024_1_0_0_1_n_n.lhsIdx i q 0).val = (i 0).val := by
  unfold DotDims.lhsIdx
  rw [dif_neg (show ¬(0 : Fin S512x1024.rank) ∈ dot_S512x1024_S1024x1024_S512x1024_1_0_0_1_n_n.lhsBatch by decide), dif_pos (show (0 : Fin S512x1024.rank) ∈ dot_S512x1024_S1024x1024_S512x1024_1_0_0_1_n_n.lhsNonContracting by decide)]
  rfl
/-- Left operand, column axis: the contraction's coordinate. -/
theorem projL_1 (i : S512x1024.Idx) (q : dot_S512x1024_S1024x1024_S512x1024_1_0_0_1_n_n.contr.Idx) :
    (dot_S512x1024_S1024x1024_S512x1024_1_0_0_1_n_n.lhsIdx i q 1).val = (q ⟨0, by decide⟩).val :=
  dot_S512x1024_S1024x1024_S512x1024_1_0_0_1_n_n.lhsIdx_val_of_single rfl i q
/-- Right operand, row axis: the contraction's coordinate. -/
theorem projR_0 (i : S512x1024.Idx) (q : dot_S512x1024_S1024x1024_S512x1024_1_0_0_1_n_n.contr.Idx) :
    (dot_S512x1024_S1024x1024_S512x1024_1_0_0_1_n_n.rhsIdx i q 0).val = (q ⟨0, by decide⟩).val :=
  dot_S512x1024_S1024x1024_S512x1024_1_0_0_1_n_n.rhsIdx_val_of_single rfl i q
/-- Right operand, column axis: the result's column. -/
theorem projR_1 (i : S512x1024.Idx) (q : dot_S512x1024_S1024x1024_S512x1024_1_0_0_1_n_n.contr.Idx) :
    (dot_S512x1024_S1024x1024_S512x1024_1_0_0_1_n_n.rhsIdx i q 1).val = (i 1).val := by
  unfold DotDims.rhsIdx
  rw [dif_neg (show ¬(1 : Fin S1024x1024.rank) ∈ dot_S512x1024_S1024x1024_S512x1024_1_0_0_1_n_n.rhsBatch by decide), dif_pos (show (1 : Fin S1024x1024.rank) ∈ dot_S512x1024_S1024x1024_S512x1024_1_0_0_1_n_n.rhsNonContracting by decide)]
  rfl

/-- A 512×1024 tile times a 1024×1024 matrix into the zero tile: at (r, j) the sum over f of a[r,f] · b[f,j]. -/
theorem proj_apply (a : FVec Ideal S512x1024 .bf16) (b : FVec Ideal S1024x1024 .bf16) (r : Fin 512) (j : Fin 1024) :
    matmul dot_S512x1024_S1024x1024_S512x1024_1_0_0_1_n_n none a b (constant (F := Ideal) S512x1024 .f32 0x00000000#32) (ix2 r j)
      = ∑ f : Fin 1024, a (ix2 r f) * b (ix2 f j) := by
  simp only [matmul]
  rw [Ideal.matmul_constant_zero_apply, ← Equiv.sum_comp (contrEquiv1 dot_S512x1024_S1024x1024_S512x1024_1_0_0_1_n_n 1024 rfl rfl).symm]
  refine Finset.sum_congr rfl fun k _ => ?_
  have hk := contrEquiv1_symm_val dot_S512x1024_S1024x1024_S512x1024_1_0_0_1_n_n 1024 rfl rfl k
  have el : dot_S512x1024_S1024x1024_S512x1024_1_0_0_1_n_n.lhsIdx (ix2 r j) ((contrEquiv1 dot_S512x1024_S1024x1024_S512x1024_1_0_0_1_n_n 1024 rfl rfl).symm k) = ix2 r k := funext fun ax => Fin.ext (by
    match ax with
    | ⟨0, _⟩ => exact projL_0 _ _
    | ⟨1, _⟩ => exact (projL_1 _ _).trans hk)
  have er : dot_S512x1024_S1024x1024_S512x1024_1_0_0_1_n_n.rhsIdx (ix2 r j) ((contrEquiv1 dot_S512x1024_S1024x1024_S512x1024_1_0_0_1_n_n 1024 rfl rfl).symm k) = ix2 k j := funext fun ax => Fin.ext (by
    match ax with
    | ⟨0, _⟩ => exact (projR_0 _ _).trans hk
    | ⟨1, _⟩ => exact projR_1 _ _)
  rw [el, er]

/-- Left operand of the score product, row axis: the result's row. -/
theorem scoreL_0 (i : S512x512.Idx) (q : dot_S512x1024_S512x1024_S512x512_1_1_0_0_n_n.contr.Idx) :
    (dot_S512x1024_S512x1024_S512x512_1_1_0_0_n_n.lhsIdx i q 0).val = (i 0).val := by
  unfold DotDims.lhsIdx
  rw [dif_neg (show ¬(0 : Fin S512x1024.rank) ∈ dot_S512x1024_S512x1024_S512x512_1_1_0_0_n_n.lhsBatch by decide), dif_pos (show (0 : Fin S512x1024.rank) ∈ dot_S512x1024_S512x1024_S512x512_1_1_0_0_n_n.lhsNonContracting by decide)]
  rfl
/-- Left operand, column axis: the contraction's coordinate. -/
theorem scoreL_1 (i : S512x512.Idx) (q : dot_S512x1024_S512x1024_S512x512_1_1_0_0_n_n.contr.Idx) :
    (dot_S512x1024_S512x1024_S512x512_1_1_0_0_n_n.lhsIdx i q 1).val = (q ⟨0, by decide⟩).val :=
  dot_S512x1024_S512x1024_S512x512_1_1_0_0_n_n.lhsIdx_val_of_single rfl i q
/-- Right operand, row axis: the result's column. -/
theorem scoreR_0 (i : S512x512.Idx) (q : dot_S512x1024_S512x1024_S512x512_1_1_0_0_n_n.contr.Idx) :
    (dot_S512x1024_S512x1024_S512x512_1_1_0_0_n_n.rhsIdx i q 0).val = (i 1).val := by
  unfold DotDims.rhsIdx
  rw [dif_neg (show ¬(0 : Fin S512x1024.rank) ∈ dot_S512x1024_S512x1024_S512x512_1_1_0_0_n_n.rhsBatch by decide), dif_pos (show (0 : Fin S512x1024.rank) ∈ dot_S512x1024_S512x1024_S512x512_1_1_0_0_n_n.rhsNonContracting by decide)]
  rfl
/-- Right operand, column axis: the contraction's coordinate. -/
theorem scoreR_1 (i : S512x512.Idx) (q : dot_S512x1024_S512x1024_S512x512_1_1_0_0_n_n.contr.Idx) :
    (dot_S512x1024_S512x1024_S512x512_1_1_0_0_n_n.rhsIdx i q 1).val = (q ⟨0, by decide⟩).val :=
  dot_S512x1024_S512x1024_S512x512_1_1_0_0_n_n.rhsIdx_val_of_single rfl i q

/-- Two 512×1024 tiles contracted along their columns into the zero tile: at (r, c) the sum over j of a[r,j] · b[c,j]. -/
theorem gram_apply (a b : FVec Ideal S512x1024 .bf16) (r c : Fin 512) :
    matmul dot_S512x1024_S512x1024_S512x512_1_1_0_0_n_n none a b (constant (F := Ideal) S512x512 .f32 0x00000000#32) (ix2 r c)
      = ∑ j : Fin 1024, a (ix2 r j) * b (ix2 c j) := by
  simp only [matmul]
  rw [Ideal.matmul_constant_zero_apply, ← Equiv.sum_comp (contrEquiv1 dot_S512x1024_S512x1024_S512x512_1_1_0_0_n_n 1024 rfl rfl).symm]
  refine Finset.sum_congr rfl fun k _ => ?_
  have hk := contrEquiv1_symm_val dot_S512x1024_S512x1024_S512x512_1_1_0_0_n_n 1024 rfl rfl k
  have el : dot_S512x1024_S512x1024_S512x512_1_1_0_0_n_n.lhsIdx (ix2 r c) ((contrEquiv1 dot_S512x1024_S512x1024_S512x512_1_1_0_0_n_n 1024 rfl rfl).symm k) = ix2 r k := funext fun ax => Fin.ext (by
    match ax with
    | ⟨0, _⟩ => exact scoreL_0 _ _
    | ⟨1, _⟩ => exact (scoreL_1 _ _).trans hk)
  have er : dot_S512x1024_S512x1024_S512x512_1_1_0_0_n_n.rhsIdx (ix2 r c) ((contrEquiv1 dot_S512x1024_S512x1024_S512x512_1_1_0_0_n_n 1024 rfl rfl).symm k) = ix2 c k := funext fun ax => Fin.ext (by
    match ax with
    | ⟨0, _⟩ => exact scoreR_0 _ _
    | ⟨1, _⟩ => exact (scoreR_1 _ _).trans hk)
  rw [el, er]

/-- The projected tile at (r, j): row r of the f32 tile against column j of the weight. -/
theorem pay2_apply (x0 : FVec Ideal S1x512x1024 .f32) (x1 : FVec Ideal S1024x1024 .bf16) (r : Fin 512) (j : Fin 1024) :
    k1_pay2 (F := Ideal) x0 x1 (ix2 r j) = ∑ f : Fin 1024, x0 (ix3 0 r f) * x1 (ix2 f j) := by
  unfold k1_pay2
  refine (proj_apply _ _ r j).trans ?_
  refine Finset.sum_congr rfl fun f _ => ?_
  rw [truncf_apply, shapeCast_1ab_ab_apply, shapeCast_self]

/-! ## Column forms of the layout operations -/

section Layout
variable {α : Type}

/-- A vector of `a` entries cast to an `[a, 1]` column reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## The two constants, and the reductions along a row -/

/-- The word the running maximum starts from is −∞. -/
theorem ofBits_neg_inf_f32 : Ideal.ofBits .f32 0xFF800000#32 = ⊥ := by simp [Ideal.ofBits, Ideal.ieee]

/-- The maximum along each row of a 512×512 tile, from −∞: at row `r` the fold of `max` over that row. -/
theorem rowMax_apply (src : FVec Ideal S512x512 .f32) (hφ : FKind.Formats .f32)
    (hacc : (0xFF800000#32 : BitVec 32) = 0xFF800000#32) (r : Fin 512) :
    multiReduction (F := Ideal) .maximumf [1] S512 src 0xFF800000#32 reduces_S512x512_S512 hφ hacc (ix1 r)
      = (Finset.univ : Finset (Fin 512)).fold max ⊥ (fun c => src (ix2 r c)) := by
  refine (Ideal.multiReduction_maximumf_single src 0xFF800000#32 reduces_S512x512_S512 hφ hacc (ix1 r)).trans ?_
  show (Finset.univ : Finset (Fin 512)).fold max (Ideal.ofBits .f32 0xFF800000#32) (src ∘ reduces_S512x512_S512.lift (ix1 r)) = _
  rw [ofBits_neg_inf_f32]
  refine congrArg (fun f => (Finset.univ : Finset (Fin 512)).fold max ⊥ f) (funext fun c => ?_)
  exact congrArg src (funext fun ax => Fin.ext (by match ax with | ⟨0, _⟩ => rfl | ⟨1, _⟩ => rfl))

/-- The sum along each row of a 512×512 tile: at row `r` the sum over that row. -/
theorem rowSum512_apply (src : FVec Ideal S512x512 .f32) (hφ : FKind.Formats .f32)
    (hacc : (0x00000000#32 : BitVec 32) = 0x00000000#32) (r : Fin 512) :
    multiReduction (F := Ideal) .add [1] S512 src 0x00000000#32 reduces_S512x512_S512 hφ hacc (ix1 r)
      = ∑ c : Fin 512, src (ix2 r c) := by
  refine (Ideal.multiReduction_add_single src 0x00000000#32 reduces_S512x512_S512 hφ hacc (ix1 r)).trans ?_
  show ∑ c : Fin 512, src (reduces_S512x512_S512.lift (ix1 r) c) = _
  refine Finset.sum_congr rfl fun c _ => ?_
  exact congrArg src (funext fun ax => Fin.ext (by match ax with | ⟨0, _⟩ => rfl | ⟨1, _⟩ => rfl))

/-- The sum along each row of a 512×1024 tile: at row `r` the sum over that row. -/
theorem rowSum1024_apply (src : FVec Ideal S512x1024 .f32) (hφ : FKind.Formats .f32)
    (hacc : (0x00000000#32 : BitVec 32) = 0x00000000#32) (r : Fin 512) :
    multiReduction (F := Ideal) .add [1] S512 src 0x00000000#32 reduces_S512x1024_S512 hφ hacc (ix1 r)
      = ∑ j : Fin 1024, src (ix2 r j) := by
  refine (Ideal.multiReduction_add_single src 0x00000000#32 reduces_S512x1024_S512 hφ hacc (ix1 r)).trans ?_
  show ∑ j : Fin 1024, src (reduces_S512x1024_S512.lift (ix1 r) j) = _
  refine Finset.sum_congr rfl fun j _ => ?_
  exact congrArg src (funext fun ax => Fin.ext (by match ax with | ⟨0, _⟩ => rfl | ⟨1, _⟩ => rfl))

/-! ## The query buffer's chunks -/

/-- Chunk `k` of the query buffer at (0, c, j) is the buffer's row 512·k + c. -/
theorem qchunk_apply (x2 : FVec Ideal S1x2048x1024 .bf16) (k : Fin k1_t1_loop.trips) (k' : Fin 4) (hk : k.val = k'.val)
    (c : Fin 512) (j : Fin 1024) :
    qchunk (F := Ideal) x2 k (ix3 0 c j) = x2 (ix3 0 (Online.chunkIdx k' c) j) := by
  unfold qchunk
  show x2 ((Rect.unit (s := S1x2048x1024) (k1_off1 k) S1x512x1024.size (k1_off1_inb k)).idx (ix3 0 c j)) = _
  refine congrArg x2 (funext fun ax => Fin.ext ?_)
  show k1_off1 k ax + 1 * ((ix3 (0 : Fin 1) c j) ax).val = _
  rw [k1_off1_eq k]
  match ax with
  | ⟨0, _⟩ => rfl
  | ⟨1, _⟩ =>
    show 512 * k.val + 1 * c.val = 512 * k'.val + c.val
    rw [hk, Nat.one_mul]
  | ⟨2, _⟩ =>
    show 0 + 1 * j.val = j.val
    rw [Nat.one_mul, Nat.zero_add]

/-- The diagonal chunk at (0, c, j): the buffer's row 512·so + c, `so` the point's second grid coordinate. -/
theorem qdiag_apply (x2 : FVec Ideal S1x2048x1024 .bf16) (i : grid1.Coords) (so : Fin 4) (hso : (i 1).val = so.val)
    (c : Fin 512) (j : Fin 1024) :
    qdiag (F := Ideal) i x2 (ix3 0 c j) = x2 (ix3 0 (Online.chunkIdx so c) j) := by
  unfold qdiag
  show x2 ((Rect.unit (s := S1x2048x1024) (k1_off2 i) S1x512x1024.size (k1_off2_inb i)).idx (ix3 0 c j)) = _
  refine congrArg x2 (funext fun ax => Fin.ext ?_)
  show k1_off2 i ax + 1 * ((ix3 (0 : Fin 1) c j) ax).val = _
  rw [k1_off2_eq i]
  match ax with
  | ⟨0, _⟩ => rfl
  | ⟨1, _⟩ =>
    show 512 * (i 1).val + 1 * c.val = 512 * so.val + c.val
    rw [hso, Nat.one_mul]
  | ⟨2, _⟩ =>
    show 0 + 1 * j.val = j.val
    rw [Nat.one_mul, Nat.zero_add]

/-! ## The payloads at an index -/

/-- The score tile of a chunk at (r, c): projected key row `r` against the chunk's row `c`, scaled. -/
theorem pay5_apply (x0 : FVec Ideal S1x512x1024 .f32) (x1 : FVec Ideal S1024x1024 .bf16) (v40 : FVec Ideal S1x512x1024 .bf16)
    (r c : Fin 512) :
    k1_pay5 (F := Ideal) x0 x1 v40 (ix2 r c)
      = (∑ j : Fin 1024, (∑ f : Fin 1024, x0 (ix3 0 r f) * x1 (ix2 f j)) * v40 (ix3 0 c j)) * Cert.Attn.scale := by
  unfold k1_pay5 Cert.Attn.scale
  refine (mulf_apply _ _ _).trans ?_
  refine congrArg₂ (· * ·) ?_ rfl
  refine (gram_apply _ _ r c).trans ?_
  refine Finset.sum_congr rfl fun j _ => ?_
  rw [truncf_apply, pay2_apply, shapeCast_1ab_ab_apply]

/-- The new running maximum at row `r`: the larger of the old one and the chunk's largest score in that row. -/
theorem pay6_apply (x0 : FVec Ideal S1x512x1024 .f32) (x1 : FVec Ideal S1024x1024 .bf16) (arg9 : FVec Ideal S512x1 .f32)
    (v40 : FVec Ideal S1x512x1024 .bf16) (r : Fin 512) :
    k1_pay6 (F := Ideal) x0 x1 arg9 v40 (ix2 r (0 : Fin 1))
      = max (arg9 (ix2 r (0 : Fin 1)))
          ((Finset.univ : Finset (Fin 512)).fold max ⊥ (fun c => k1_pay5 (F := Ideal) x0 x1 v40 (ix2 r c))) := by
  unfold k1_pay6
  refine (maximumf_apply _ _ _).trans ?_
  refine congrArg (max (arg9 (ix2 r (0 : Fin 1)))) ?_
  refine (shapeCast_a_a1_apply _ _ r (0 : Fin 1)).trans ?_
  exact rowMax_apply _ _ _ r

/-- The new running sum at row `r`: the old one carried to the new maximum, plus the chunk's shifted exponentials. -/
theorem pay7_apply (x0 : FVec Ideal S1x512x1024 .f32) (x1 : FVec Ideal S1024x1024 .bf16) (arg9 arg10 : FVec Ideal S512x1 .f32)
    (v40 : FVec Ideal S1x512x1024 .bf16) (r : Fin 512) :
    k1_pay7 (F := Ideal) x0 x1 arg9 arg10 v40 (ix2 r (0 : Fin 1))
      = Ideal.exp (arg9 (ix2 r (0 : Fin 1)) - k1_pay6 (F := Ideal) x0 x1 arg9 v40 (ix2 r (0 : Fin 1))) * arg10 (ix2 r (0 : Fin 1))
        + ∑ c : Fin 512, Ideal.exp (k1_pay5 (F := Ideal) x0 x1 v40 (ix2 r c) - k1_pay6 (F := Ideal) x0 x1 arg9 v40 (ix2 r (0 : Fin 1))) := by
  unfold k1_pay7
  refine (addf_apply _ _ _).trans ?_
  refine congrArg₂ (· + ·) rfl ?_
  refine (shapeCast_a_a1_apply _ _ r (0 : Fin 1)).trans ?_
  refine (rowSum512_apply _ _ _ r).trans ?_
  refine Finset.sum_congr rfl fun c _ => ?_
  show Ideal.exp (k1_pay5 (F := Ideal) x0 x1 v40 (ix2 r c)
    - broadcastTo S512x512 (k1_pay6 (F := Ideal) x0 x1 arg9 v40) broadcasts_S512x1_S512x512 (ix2 r c)) = _
  rw [broadcastTo_a1_ab_apply]

/-- The running maximum starts at −∞ … -/
theorem pay3_apply (i : S512x1.Idx) : (k1_pay3 (F := Ideal)) i = ⊥ := by
  unfold k1_pay3
  exact ofBits_neg_inf_f32
/-- … and the running sum at 0. -/
theorem pay4_apply (i : S512x1.Idx) : (k1_pay4 (F := Ideal)) i = 0 := by
  unfold k1_pay4
  exact Ideal.ofBits_zero_f32

/-! ## The loop, row by row -/

/-- A chunk's score tile at (r, c) is row `r`'s score against query row 512·k + c. -/
theorem chunk_score (x0 : FVec Ideal S1x512x1024 .f32) (x1 : FVec Ideal S1024x1024 .bf16) (x2 : FVec Ideal S1x2048x1024 .bf16)
    (k : Fin k1_t1_loop.trips) (k' : Fin 4) (hk : k.val = k'.val) (r c : Fin 512) :
    k1_pay5 (F := Ideal) x0 x1 (qchunk (F := Ideal) x2 k) (ix2 r c) = rowScore x0 x1 x2 r (Online.chunkIdx k' c) := by
  rw [pay5_apply]
  unfold rowScore
  refine congrArg (· * Cert.Attn.scale) (Finset.sum_congr rfl fun j _ => ?_)
  rw [qchunk_apply x2 k k' hk]

/-- One trip at row `r` is one step of the chunk-by-chunk recurrence on that row's scores. -/
theorem mlStep_row (x0 : FVec Ideal S1x512x1024 .f32) (x1 : FVec Ideal S1024x1024 .bf16) (x2 : FVec Ideal S1x2048x1024 .bf16)
    (k : Fin k1_t1_loop.trips) (k' : Fin 4) (hk : k.val = k'.val)
    (acc : FVec Ideal S512x1 .f32 × FVec Ideal S512x1 .f32) (ml : EReal × EReal) (r : Fin 512)
    (h1 : acc.1 (ix2 r (0 : Fin 1)) = ml.1) (h2 : acc.2 (ix2 r (0 : Fin 1)) = ml.2) :
    (mlStep (F := Ideal) x0 x1 x2 k acc).1 (ix2 r (0 : Fin 1)) = (Online.step (rowScore x0 x1 x2 r) k' ml).1
      ∧ (mlStep (F := Ideal) x0 x1 x2 k acc).2 (ix2 r (0 : Fin 1)) = (Online.step (rowScore x0 x1 x2 r) k' ml).2 := by
  have hs : (fun c : Fin 512 => k1_pay5 (F := Ideal) x0 x1 (qchunk (F := Ideal) x2 k) (ix2 r c))
      = fun c => rowScore x0 x1 x2 r (Online.chunkIdx k' c) := funext fun c => chunk_score x0 x1 x2 k k' hk r c
  have h6 : k1_pay6 (F := Ideal) x0 x1 acc.1 (qchunk (F := Ideal) x2 k) (ix2 r (0 : Fin 1))
      = max ml.1 ((Finset.univ : Finset (Fin 512)).fold max ⊥ (fun c => rowScore x0 x1 x2 r (Online.chunkIdx k' c))) := by
    rw [pay6_apply, h1, hs]
  refine ⟨h6, ?_⟩
  show k1_pay7 (F := Ideal) x0 x1 acc.1 acc.2 (qchunk (F := Ideal) x2 k) (ix2 r (0 : Fin 1)) = _
  rw [pay7_apply, h6, h1, h2]
  unfold Online.step
  refine congrArg₂ (· + ·) rfl (Finset.sum_congr rfl fun c _ => ?_)
  rw [chunk_score x0 x1 x2 k k' hk r c]

/-- The running pair one trip on. -/
theorem mlAt_succ (x0 : FVec Ideal S1x512x1024 .f32) (x1 : FVec Ideal S1024x1024 .bf16) (x2 : FVec Ideal S1x2048x1024 .bf16)
    (n : ℕ) (h : n < k1_t1_loop.trips) :
    mlAt (F := Ideal) x0 x1 x2 (n + 1) = mlStep (F := Ideal) x0 x1 x2 ⟨n, h⟩ (mlAt (F := Ideal) x0 x1 x2 n) := by
  rw [mlAt, dif_pos h]

/-- After the four trips row `r` of the running pair is the chunk-by-chunk maximum and normaliser of that row's scores. -/
theorem mlAt_row (x0 : FVec Ideal S1x512x1024 .f32) (x1 : FVec Ideal S1024x1024 .bf16) (x2 : FVec Ideal S1x2048x1024 .bf16) (r : Fin 512) :
    (mlAt (F := Ideal) x0 x1 x2 k1_t1_loop.trips).1 (ix2 r (0 : Fin 1)) = (Online.run (rowScore x0 x1 x2 r)).1
      ∧ (mlAt (F := Ideal) x0 x1 x2 k1_t1_loop.trips).2 (ix2 r (0 : Fin 1)) = (Online.run (rowScore x0 x1 x2 r)).2 := by
  have ht : k1_t1_loop.trips = 4 := by decide
  have e0 : mlAt (F := Ideal) x0 x1 x2 0 = (k1_pay3 (F := Ideal), k1_pay4 (F := Ideal)) := by rw [mlAt]
  have a0 : (mlAt (F := Ideal) x0 x1 x2 0).1 (ix2 r (0 : Fin 1)) = ((⊥, 0) : EReal × EReal).1
      ∧ (mlAt (F := Ideal) x0 x1 x2 0).2 (ix2 r (0 : Fin 1)) = ((⊥, 0) : EReal × EReal).2 := by
    rw [e0]
    exact ⟨pay3_apply (ix2 r (0 : Fin 1)), pay4_apply (ix2 r (0 : Fin 1))⟩
  have a1 := mlStep_row x0 x1 x2 ⟨0, by rw [ht]; decide⟩ 0 rfl _ _ r a0.1 a0.2
  rw [← mlAt_succ x0 x1 x2 0 (by rw [ht]; decide)] at a1
  have a2 := mlStep_row x0 x1 x2 ⟨1, by rw [ht]; decide⟩ 1 rfl _ _ r a1.1 a1.2
  rw [← mlAt_succ x0 x1 x2 1 (by rw [ht]; decide)] at a2
  have a3 := mlStep_row x0 x1 x2 ⟨2, by rw [ht]; decide⟩ 2 rfl _ _ r a2.1 a2.2
  rw [← mlAt_succ x0 x1 x2 2 (by rw [ht]; decide)] at a3
  have a4 := mlStep_row x0 x1 x2 ⟨3, by rw [ht]; decide⟩ 3 rfl _ _ r a3.1 a3.2
  rw [← mlAt_succ x0 x1 x2 3 (by rw [ht]; decide)] at a4
  rw [ht]
  exact a4

/-- The exponential of a difference of two vectors, at an index. -/
theorem exp_subf_apply {s : Shape} (a b : FVec Ideal s .f32) (i : s.Idx) : exp (subf a b) i = Ideal.exp (a i - b i) := rfl

/-- The last payload at (r, g): the weight exp (diagonal score − m) / l of row `r`, times the projected value. -/
theorem pay8_apply (x0 : FVec Ideal S1x512x1024 .f32) (x1 : FVec Ideal S1024x1024 .bf16) (m l : FVec Ideal S512x1 .f32)
    (v14 : FVec Ideal S1x512x1024 .bf16) (x3 : FVec Ideal S1x512x1024 .f32) (x4 : FVec Ideal S1024x1024 .bf16)
    (r : Fin 512) (g : Fin 1024) :
    k1_pay8 (F := Ideal) x0 x1 m l v14 x3 x4 (ix2 r g)
      = Ideal.div (Ideal.exp ((∑ j : Fin 1024, (∑ f : Fin 1024, x0 (ix3 0 r f) * x1 (ix2 f j)) * v14 (ix3 0 r j)) * Cert.Attn.scale
              - m (ix2 r (0 : Fin 1)))) (l (ix2 r (0 : Fin 1)))
          * ∑ f : Fin 1024, x3 (ix3 0 r f) * x4 (ix2 f g) := by
  unfold k1_pay8 Cert.Attn.scale
  refine (mulf_apply _ _ _).trans ?_
  refine congrArg₂ (· * ·) ?_ ?_
  · refine (broadcastTo_a1_ab_apply _ _ r g).trans ?_
    refine (divf_apply _ _ _).trans ?_
    refine congrArg (fun t => Ideal.div t (l (ix2 r (0 : Fin 1)))) ?_
    refine (exp_subf_apply _ _ _).trans ?_
    refine congrArg (fun t => Ideal.exp (t - m (ix2 r (0 : Fin 1)))) ?_
    refine (mulf_apply _ _ _).trans ?_
    refine congrArg₂ (· * ·) ?_ rfl
    refine (shapeCast_a_a1_apply _ _ r (0 : Fin 1)).trans ?_
    refine (rowSum1024_apply _ _ _ r).trans ?_
    refine Finset.sum_congr rfl fun j _ => ?_
    refine (mulf_apply _ _ _).trans ?_
    rw [pay2_apply, extf_apply, shapeCast_1ab_ab_apply]
  · refine (proj_apply _ _ r g).trans ?_
    refine Finset.sum_congr rfl fun f _ => ?_
    rw [truncf_apply, shapeCast_1ab_ab_apply, shapeCast_self]

/-- The stored block at (0, r, g): the diagonal weight, by the chunk-by-chunk maximum and normaliser, times the projected value. -/
theorem blockOut_apply (i : grid1.Coords) (so : Fin 4) (hso : (i 1).val = so.val)
    (x0 : FVec Ideal S1x512x1024 .f32) (x1 : FVec Ideal S1024x1024 .bf16) (x2 : FVec Ideal S1x2048x1024 .bf16)
    (x3 : FVec Ideal S1x512x1024 .f32) (x4 : FVec Ideal S1024x1024 .bf16) (r : Fin 512) (g : Fin 1024) :
    blockOut (F := Ideal) i x0 x1 x2 x3 x4 (ix3 0 r g)
      = Ideal.div (Ideal.exp (rowScore x0 x1 x2 r (Online.chunkIdx so r) - (Online.run (rowScore x0 x1 x2 r)).1))
            (Online.run (rowScore x0 x1 x2 r)).2
          * ∑ f : Fin 1024, x3 (ix3 0 r f) * x4 (ix2 f g) := by
  have hd : (∑ j : Fin 1024, (∑ f : Fin 1024, x0 (ix3 0 r f) * x1 (ix2 f j)) * qdiag (F := Ideal) i x2 (ix3 0 r j)) * Cert.Attn.scale
      = rowScore x0 x1 x2 r (Online.chunkIdx so r) := by
    unfold rowScore
    refine congrArg (· * Cert.Attn.scale) (Finset.sum_congr rfl fun j _ => ?_)
    rw [qdiag_apply x2 i so hso]
  unfold blockOut k1_pay1
  refine (shapeCast_ab_1ab_apply _ _ (0 : Fin 1) r g).trans ?_
  refine (pay8_apply x0 x1 _ _ (qdiag (F := Ideal) i x2) x3 x4 r g).trans ?_
  rw [(mlAt_row x0 x1 x2 r).1, (mlAt_row x0 x1 x2 r).2, hd]

end Cert.Attn.Body

end
-- ==== Proof.KGrid.lean ====
/-
  The attention call's grid and where each of its blocks sits.

  The grid is 8 × 4: point t has batch coordinate b = t / 4 and tile coordinate so = t mod 4.  The key, value and
  output blocks of the point are rows 512·so … 512·so + 511 of batch b; the query block is the whole of batch b; the
  two weights are taken whole.  So entry (0, r, f) of the key block is entry (b, 512·so + r, f) of the key array, and so on.
-/
import proofs.«402531_j73443940761807_3_alg».proof.Proof.Gen.KernelIdeal.Frame
import Idealize.ShloMosaic.Lib.ValueIdx
import Idealize.ShloMosaic.Lib.Pipeline.Value

set_option maxRecDepth 16384

noncomputable section

namespace Cert.Attn.KGrid

open Idealize.ShloMosaic Idealize.ShloMosaic.TcCoe Idealize.ShloMosaic.ValueIdx Idealize.SL.Sem
open Cert.KernelIdeal Cert.KernelIdeal.Gen

/-- The printed index maps, decided over the 32 points. -/
theorem idx_facts : ∀ t : Fin cfg1.N,
    (grid1.coords t 0).val < 8 ∧ (grid1.coords t 1).val < 4
    ∧ win1_0.index t (0 : Fin 3) = (grid1.coords t 0).val ∧ win1_0.index t (1 : Fin 3) = (grid1.coords t 1).val ∧ win1_0.index t (2 : Fin 3) = 0
    ∧ win1_1.index t (0 : Fin 2) = 0 ∧ win1_1.index t (1 : Fin 2) = 0
    ∧ win1_2.index t (0 : Fin 3) = (grid1.coords t 0).val ∧ win1_2.index t (1 : Fin 3) = 0 ∧ win1_2.index t (2 : Fin 3) = 0
    ∧ win1_3.index t (0 : Fin 3) = (grid1.coords t 0).val ∧ win1_3.index t (1 : Fin 3) = (grid1.coords t 1).val ∧ win1_3.index t (2 : Fin 3) = 0
    ∧ win1_4.index t (0 : Fin 2) = 0 ∧ win1_4.index t (1 : Fin 2) = 0
    ∧ win1_5.index t (0 : Fin 3) = (grid1.coords t 0).val ∧ win1_5.index t (1 : Fin 3) = (grid1.coords t 1).val ∧ win1_5.index t (2 : Fin 3) = 0 :=
  (by decide +kernel : ∀ t : Fin grid1.N, _)

/-- Every (batch, tile) pair is some point's. -/
theorem idx_onto : ∀ (b : Fin 8) (so : Fin 4), ∃ t : Fin cfg1.N, (grid1.coords t 0).val = b.val ∧ (grid1.coords t 1).val = so.val :=
  (by decide +kernel : ∀ (b : Fin 8) (so : Fin 4), ∃ t : Fin grid1.N, (grid1.coords t 0).val = b.val ∧ (grid1.coords t 1).val = so.val)

variable {F : FTy → Type} [FloatOps F]
variable (V : (c : Dev nD) → (b : Ref sig .tc) → Buf (Elt F) ((c : Thread nD τ).loc b))

/-- Row `512·so + r` of the sequence axis. -/
def row (so : Fin 4) (r : Fin 512) : Fin 2048 := ⟨512 * so.val + r.val, by omega⟩

/-- The key block of point `t` at (0, r, f) is the key array at (b, 512·so + r, f). -/
theorem key_blk (c : Dev nD) (t : Fin cfg1.N) (b : Fin 8) (so : Fin 4) (hb : (grid1.coords t 0).val = b.val) (hso : (grid1.coords t 1).val = so.val)
    (r : Fin 512) (f : Fin 1024) :
    iblk1 V c 0 t (ix3 (0 : Fin 1) r f) = (V c main_arg1 : Vec F S8x2048x1024 .f32) (ix3 b (row so r) f) := by
  obtain ⟨_, _, e0, e1, e2, _⟩ := idx_facts t
  show (V c main_arg1 : Vec F S8x2048x1024 .f32) (((cfg1.win 0).blk t).view.emb (ix3 (0 : Fin 1) r f)) = _
  refine congrArg _ (funext fun a => Fin.ext ?_)
  match a with
  | ⟨0, _⟩ => show win1_0.index t (0 : Fin 3) * 1 + 1 * 0 = b.val; omega
  | ⟨1, _⟩ => show win1_0.index t (1 : Fin 3) * 512 + 1 * r.val = 512 * so.val + r.val; omega
  | ⟨2, _⟩ => show win1_0.index t (2 : Fin 3) * 1024 + 1 * f.val = f.val; omega

/-- The value block of point `t` at (0, r, f) is the value array at (b, 512·so + r, f). -/
theorem value_blk (c : Dev nD) (t : Fin cfg1.N) (b : Fin 8) (so : Fin 4) (hb : (grid1.coords t 0).val = b.val) (hso : (grid1.coords t 1).val = so.val)
    (r : Fin 512) (f : Fin 1024) :
    iblk1 V c 3 t (ix3 (0 : Fin 1) r f) = (V c main_arg2 : Vec F S8x2048x1024 .f32) (ix3 b (row so r) f) := by
  obtain ⟨_, _, _, _, _, _, _, _, _, _, e0, e1, e2, _⟩ := idx_facts t
  show (V c main_arg2 : Vec F S8x2048x1024 .f32) (((cfg1.win 3).blk t).view.emb (ix3 (0 : Fin 1) r f)) = _
  refine congrArg _ (funext fun a => Fin.ext ?_)
  match a with
  | ⟨0, _⟩ => show win1_3.index t (0 : Fin 3) * 1 + 1 * 0 = b.val; omega
  | ⟨1, _⟩ => show win1_3.index t (1 : Fin 3) * 512 + 1 * r.val = 512 * so.val + r.val; omega
  | ⟨2, _⟩ => show win1_3.index t (2 : Fin 3) * 1024 + 1 * f.val = f.val; omega

/-- The query block of point `t` at (0, i', j) is the projected-query array at (b, i', j). -/
theorem query_blk (c : Dev nD) (t : Fin cfg1.N) (b : Fin 8) (hb : (grid1.coords t 0).val = b.val)
    (i' : Fin 2048) (j : Fin 1024) :
    iblk1 V c 2 t (ix3 (0 : Fin 1) i' j) = (V c main_v8 : Vec F S8x2048x1024 .bf16) (ix3 b i' j) := by
  obtain ⟨_, _, _, _, _, _, _, e0, e1, e2, _⟩ := idx_facts t
  show (V c main_v8 : Vec F S8x2048x1024 .bf16) (((cfg1.win 2).blk t).view.emb (ix3 (0 : Fin 1) i' j)) = _
  refine congrArg _ (funext fun a => Fin.ext ?_)
  match a with
  | ⟨0, _⟩ => show win1_2.index t (0 : Fin 3) * 1 + 1 * 0 = b.val; omega
  | ⟨1, _⟩ => show win1_2.index t (1 : Fin 3) * 2048 + 1 * i'.val = i'.val; omega
  | ⟨2, _⟩ => show win1_2.index t (2 : Fin 3) * 1024 + 1 * j.val = j.val; omega

/-- The key-weight block is the whole transposed key weight. -/
theorem wk_blk (c : Dev nD) (t : Fin cfg1.N) (f j : Fin 1024) :
    iblk1 V c 1 t (ix2 f j) = (V c main_v3 : Vec F S1024x1024 .bf16) (ix2 f j) := by
  obtain ⟨_, _, _, _, _, e0, e1, _⟩ := idx_facts t
  show (V c main_v3 : Vec F S1024x1024 .bf16) (((cfg1.win 1).blk t).view.emb (ix2 f j)) = _
  refine congrArg _ (funext fun a => Fin.ext ?_)
  match a with
  | ⟨0, _⟩ => show win1_1.index t (0 : Fin 2) * 1024 + 1 * f.val = f.val; omega
  | ⟨1, _⟩ => show win1_1.index t (1 : Fin 2) * 1024 + 1 * j.val = j.val; omega

/-- The value-weight block is the whole transposed value weight. -/
theorem wv_blk (c : Dev nD) (t : Fin cfg1.N) (f g : Fin 1024) :
    iblk1 V c 4 t (ix2 f g) = (V c main_v5 : Vec F S1024x1024 .bf16) (ix2 f g) := by
  obtain ⟨_, _, _, _, _, _, _, _, _, _, _, _, _, e0, e1, _⟩ := idx_facts t
  show (V c main_v5 : Vec F S1024x1024 .bf16) (((cfg1.win 4).blk t).view.emb (ix2 f g)) = _
  refine congrArg _ (funext fun a => Fin.ext ?_)
  match a with
  | ⟨0, _⟩ => show win1_4.index t (0 : Fin 2) * 1024 + 1 * f.val = f.val; omega
  | ⟨1, _⟩ => show win1_4.index t (1 : Fin 2) * 1024 + 1 * g.val = g.val; omega

/-- Entry (0, r, g) of the output block of point `t` sits at (b, 512·so + r, g) of the result array. -/
theorem out_emb (t : Fin cfg1.N) (b : Fin 8) (so : Fin 4) (hb : (grid1.coords t 0).val = b.val) (hso : (grid1.coords t 1).val = so.val)
    (r : Fin 512) (g : Fin 1024) :
    ((cfg1.win 5).blk t).view.emb (ix3 (0 : Fin 1) r g) = ix3 b (row so r) g := by
  obtain ⟨_, _, _, _, _, _, _, _, _, _, _, _, _, _, _, e0, e1, e2⟩ := idx_facts t
  refine funext fun a => Fin.ext ?_
  match a with
  | ⟨0, _⟩ => show win1_5.index t (0 : Fin 3) * 1 + 1 * 0 = b.val; omega
  | ⟨1, _⟩ => show win1_5.index t (1 : Fin 3) * 512 + 1 * r.val = 512 * so.val + r.val; omega
  | ⟨2, _⟩ => show win1_5.index t (2 : Fin 3) * 1024 + 1 * g.val = g.val; omega

end Cert.Attn.KGrid

end
-- ==== Proof.KValue.lean ====
/-
  The attention call writes the specification.

  At a grid point (b, so) the five input blocks are rows of the key and value arrays, the whole batch of projected
  queries and the two transposed weights; the row of scores the body walks is then the specification's column of
  scores (the two factors of each product swapped), real numbers throughout because the inputs are, so the
  chunk-by-chunk maximum and normaliser are the column's; the diagonal score is the score at i = s; the projected
  value row is the specification's.  Hence the stored block is the point's block of the specification, the 32
  blocks tile the result array, and the array ends holding the specification.
-/
import proofs.«402531_j73443940761807_3_alg».proof.Proof.Gen.KernelIdeal.Frame
import proofs.«402531_j73443940761807_3_alg».proof.Proof.Spec
import proofs.«402531_j73443940761807_3_alg».proof.Proof.LoopDefs
import proofs.«402531_j73443940761807_3_alg».proof.Proof.Online
import proofs.«402531_j73443940761807_3_alg».proof.Proof.BodyRun
import proofs.«402531_j73443940761807_3_alg».proof.Proof.BodyValue
import proofs.«402531_j73443940761807_3_alg».proof.Proof.KGrid
import Idealize.ShloMosaic.Lib.ValueIdx
import Idealize.ShloMosaic.Lib.Pipeline.Value

set_option maxRecDepth 16384

noncomputable section

namespace Cert.Attn.KValue

open Idealize.ShloMosaic Idealize.ShloMosaic.TcCoe Idealize.ShloMosaic.ValueIdx Idealize.SL.Sem
open Cert.KernelIdeal Cert.KernelIdeal.Gen
open Cert.Attn

/-! ## Real numbers among the extended reals -/

/-- An extended real that is a real number. -/
def IsReal (x : EReal) : Prop := ∃ r : ℝ, x = (r : EReal)

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.sum {ι : Type} (s : Finset ι) (f : ι → EReal) (h : ∀ i ∈ s, IsReal (f i)) : IsReal (∑ i ∈ s, f i) := by
  classical
  induction s using Finset.induction_on with
  | empty => exact ⟨0, by simp⟩
  | insert a s ha ih =>
    rw [Finset.sum_insert ha]
    obtain ⟨x, hx⟩ := h a (Finset.mem_insert_self a s)
    obtain ⟨y, hy⟩ := ih (fun i hi => h i (Finset.mem_insert_of_mem hi))
    exact ⟨x + y, by rw [hx, hy, EReal.coe_add]⟩

/-- The scale is the real number 1/32. -/
theorem scale_eq : Cert.Attn.scale = ((1 / 32 : ℝ) : EReal) := by
  unfold Cert.Attn.scale
  simp [Ideal.ofBits, Ideal.ieee, -EReal.coe_mul]; norm_num

theorem isReal_scale : IsReal Cert.Attn.scale := ⟨1 / 32, scale_eq⟩

section Spec
variable (qA kA vA : FVec Ideal SA .f32) (wq wk wv : FVec Ideal SW .f32)

theorem isReal_proj (x : FVec Ideal SA .f32) (w : FVec Ideal SW .f32) (hx : ∀ i, IsReal (x i)) (hw : ∀ i, IsReal (w i))
    (b : Fin 8) (s : Fin 2048) (g : Fin 1024) : IsReal (proj x w b s g) :=
  IsReal.sum _ _ fun f _ => (hx _).mul (hw _)

/-- With real inputs every score is a real number. -/
theorem isReal_score (hq : ∀ i, IsReal (qA i)) (hk : ∀ i, IsReal (kA i)) (hwq : ∀ i, IsReal (wq i)) (hwk : ∀ i, IsReal (wk i))
    (b : Fin 8) (i s : Fin 2048) : IsReal (score qA kA wq wk b i s) :=
  (IsReal.sum _ _ fun j _ => (isReal_proj qA wq hq hwq b i j).mul (isReal_proj kA wk hk hwk b s j)).mul isReal_scale

/-! ## One block entry, from what the blocks hold -/

/-- The body's row of scores is the specification's column of scores. -/
theorem rowScore_eq (x0 : FVec Ideal S1x512x1024 .f32) (x1 : FVec Ideal S1024x1024 .bf16) (x2 : FVec Ideal S1x2048x1024 .bf16)
    (b : Fin 8) (s : Fin 2048) (r : Fin 512)
    (h0 : ∀ f : Fin 1024, x0 (ix3 (0 : Fin 1) r f) = kA (ix3 b s f))
    (h1 : ∀ f j : Fin 1024, x1 (ix2 f j) = wk (ix2 j f))
    (h2 : ∀ (i' : Fin 2048) (j : Fin 1024), x2 (ix3 (0 : Fin 1) i' j) = proj qA wq b i' j) (i' : Fin 2048) :
    Body.rowScore x0 x1 x2 r i' = score qA kA wq wk b i' s := by
  unfold Body.rowScore score
  refine congrArg (· * Cert.Attn.scale) (Finset.sum_congr rfl fun j _ => ?_)
  rw [h2 i' j, mul_comm]
  refine congrArg (proj qA wq b i' j * ·) ?_
  show _ = ∑ f : Fin 1024, kA (ix3 b s f) * wk (ix2 j f)
  exact Finset.sum_congr rfl fun f _ => by rw [h0 f, h1 f j]

/-- The body's projected value row is the specification's. -/
theorem projv_eq (x3 : FVec Ideal S1x512x1024 .f32) (x4 : FVec Ideal S1024x1024 .bf16) (b : Fin 8) (s : Fin 2048) (r : Fin 512)
    (h3 : ∀ f : Fin 1024, x3 (ix3 (0 : Fin 1) r f) = vA (ix3 b s f))
    (h4 : ∀ f g : Fin 1024, x4 (ix2 f g) = wv (ix2 g f)) (g : Fin 1024) :
    (∑ f : Fin 1024, x3 (ix3 (0 : Fin 1) r f) * x4 (ix2 f g)) = proj vA wv b s g := by
  show _ = ∑ f : Fin 1024, vA (ix3 b s f) * wv (ix2 g f)
  exact Finset.sum_congr rfl fun f _ => by rw [h3 f, h4 f g]

/-- Entry (0, r, g) of the block a point stores is the specification at (b, 512·so + r, g). -/
theorem block_entry (i : grid1.Coords) (so : Fin 4) (hso : (i 1).val = so.val) (b : Fin 8)
    (x0 : FVec Ideal S1x512x1024 .f32) (x1 : FVec Ideal S1024x1024 .bf16) (x2 : FVec Ideal S1x2048x1024 .bf16)
    (x3 : FVec Ideal S1x512x1024 .f32) (x4 : FVec Ideal S1024x1024 .bf16) (r : Fin 512) (g : Fin 1024)
    (h0 : ∀ f : Fin 1024, x0 (ix3 (0 : Fin 1) r f) = kA (ix3 b (KGrid.row so r) f))
    (h1 : ∀ f j : Fin 1024, x1 (ix2 f j) = wk (ix2 j f))
    (h2 : ∀ (i' : Fin 2048) (j : Fin 1024), x2 (ix3 (0 : Fin 1) i' j) = proj qA wq b i' j)
    (h3 : ∀ f : Fin 1024, x3 (ix3 (0 : Fin 1) r f) = vA (ix3 b (KGrid.row so r) f))
    (h4 : ∀ f g : Fin 1024, x4 (ix2 f g) = wv (ix2 g f))
    (hq : ∀ i, IsReal (qA i)) (hk : ∀ i, IsReal (kA i)) (hwq : ∀ i, IsReal (wq i)) (hwk : ∀ i, IsReal (wk i)) :
    Body.blockOut (F := Ideal) i x0 x1 x2 x3 x4 (ix3 (0 : Fin 1) r g) = attnAt qA kA vA wq wk wv b (KGrid.row so r) g := by
  have hs : Body.rowScore x0 x1 x2 r = fun i' => score qA kA wq wk b i' (KGrid.row so r) :=
    funext (rowScore_eq qA kA wq wk x0 x1 x2 b (KGrid.row so r) r h0 h1 h2)
  rw [Body.blockOut_apply i so hso x0 x1 x2 x3 x4 r g, hs,
    Online.run_eq (fun i' => score qA kA wq wk b i' (KGrid.row so r))
      (fun i' => isReal_score qA kA wq wk hq hk hwq hwk b i' (KGrid.row so r)),
    projv_eq vA wv x3 x4 b (KGrid.row so r) r h3 h4 g]
  rfl

end Spec

/-! ## The blocks tile the result array -/

theorem hz3 : (![0, 0, 0] : Fin 3 → Nat) = fun _ => 0 := funext fun a => by fin_cases a <;> rfl

/-- An index of the result array is in point `t`'s block iff each coordinate is in the block's range on its axis. -/
theorem mem_blk (t : Fin cfg1.N) (i : S8x2048x1024.Idx) :
    i ∈ ((cfg1.win 5).blk t).view.set ↔ ∀ a : Fin 3, win1_5.index t a * S1x512x1024.size a ≤ (i a).val ∧ (i a).val < win1_5.index t a * S1x512x1024.size a + S1x512x1024.size a := by
  show i ∈ ((View.whole main_v9).slice (win1_5.rect t)).set ↔ _
  rw [View.set_slice_whole, Rect.mem_set_unit]
  exact Iff.rfl

/-- Every index of the result array is in some point's block. -/
theorem cover (i : S8x2048x1024.Idx) : ∃ t : Fin cfg1.N, (cfg1.win 5).flush t = true ∧ i ∈ ((cfg1.win 5).blk t).view.set := by
  have hi0 : (i 0).val < 8 := (i 0).isLt
  have hi1 : (i 1).val < 2048 := (i 1).isLt
  have hi2 : (i 2).val < 1024 := (i 2).isLt
  obtain ⟨t, hb, hso⟩ := KGrid.idx_onto ⟨(i 0).val, hi0⟩ ⟨(i 1).val / 512, by omega⟩
  have hb' : (grid1.coords t 0).val = (i 0).val := hb
  have hso' : (grid1.coords t 1).val = (i 1).val / 512 := hso
  obtain ⟨_, _, _, _, _, _, _, _, _, _, _, _, _, _, _, e0, e1, e2⟩ := KGrid.idx_facts t
  refine ⟨t, flush1_5 t, ?_⟩
  rw [mem_blk]
  intro a
  match a with
  | ⟨0, _⟩ => show win1_5.index t (0 : Fin 3) * 1 ≤ (i 0).val ∧ (i 0).val < win1_5.index t (0 : Fin 3) * 1 + 1; omega
  | ⟨1, _⟩ => show win1_5.index t (1 : Fin 3) * 512 ≤ (i 1).val ∧ (i 1).val < win1_5.index t (1 : Fin 3) * 512 + 512; omega
  | ⟨2, _⟩ => show win1_5.index t (2 : Fin 3) * 1024 ≤ (i 2).val ∧ (i 2).val < win1_5.index t (2 : Fin 3) * 1024 + 1024; omega

/-! ## What each point writes back, and the array after the call -/

/-- An index of a block has batch coordinate 0. -/
theorem idx_unit (y : S1x512x1024.Idx) : ∃ (r : Fin 512) (g : Fin 1024), y = ix3 (0 : Fin 1) r g :=
  ⟨y 1, y 2, funext fun a => by
    match a with
    | ⟨0, _⟩ => exact Fin.ext (by have h : (y 0).val < 1 := (y 0).isLt; show (y 0).val = 0; omega)
    | ⟨1, _⟩ => rfl
    | ⟨2, _⟩ => rfl⟩

section Region
variable (V : (c : Dev nD) → (b : Ref sig .tc) → Buf (Elt Ideal) ((c : Thread nD τ).loc b))
variable (qA kA vA : FVec Ideal SA .f32) (wq wk wv : FVec Ideal SW .f32)

/-- What point `t` writes back is its block of the specification, when the call's five arrays hold the key and value
    arrays, the projected queries and the two transposed weights, and the query-side and key-side inputs are real. -/
theorem flushed_eq (c : Dev nD) (t : Fin cfg1.N)
    (hK : (V c main_arg1 : FVec Ideal S8x2048x1024 .f32) = kA) (hV : (V c main_arg2 : FVec Ideal S8x2048x1024 .f32) = vA)
    (hQ : ∀ (b : Fin 8) (s : Fin 2048) (g : Fin 1024), (V c main_v8 : FVec Ideal S8x2048x1024 .bf16) (ix3 b s g) = proj qA wq b s g)
    (hWk : ∀ f j : Fin 1024, (V c main_v3 : FVec Ideal S1024x1024 .bf16) (ix2 f j) = wk (ix2 j f))
    (hWv : ∀ f g : Fin 1024, (V c main_v5 : FVec Ideal S1024x1024 .bf16) (ix2 f g) = wv (ix2 g f))
    (hq : ∀ i, IsReal (qA i)) (hk : ∀ i, IsReal (kA i)) (hwq : ∀ i, IsReal (wq i)) (hwk : ∀ i, IsReal (wk i)) :
    (dat1 V c).flushed 5 t = ((cfg1.win 5).blk t).view.read (Elt Ideal) (attn qA kA vA wq wk wv) := by
  show (cfg1.win 5).cut (grid1.coords t) ((dat1 V c).after 5 t) = _
  rw [after1_5, Body.outsAt1_eq]
  obtain ⟨hb8, hso4, _⟩ := KGrid.idx_facts t
  refine funext fun (y : S1x512x1024.Idx) => ?_
  obtain ⟨r, g, rfl⟩ := idx_unit y
  show Body.blockOut (F := Ideal) (grid1.coords t) (iblk1 V c 0 t) (iblk1 V c 1 t) (iblk1 V c 2 t) (iblk1 V c 3 t) (iblk1 V c 4 t) (ix3 (0 : Fin 1) r g)
      = attn qA kA vA wq wk wv (((cfg1.win 5).blk t).view.emb (ix3 (0 : Fin 1) r g))
  rw [KGrid.out_emb t ⟨(grid1.coords t 0).val, hb8⟩ ⟨(grid1.coords t 1).val, hso4⟩ rfl rfl r g, attn_ix3]
  exact block_entry qA kA vA wq wk wv (grid1.coords t) ⟨(grid1.coords t 1).val, hso4⟩ rfl ⟨(grid1.coords t 0).val, hb8⟩
    (iblk1 V c 0 t) (iblk1 V c 1 t) (iblk1 V c 2 t) (iblk1 V c 3 t) (iblk1 V c 4 t) r g
    (fun f => (KGrid.key_blk V c t ⟨(grid1.coords t 0).val, hb8⟩ ⟨(grid1.coords t 1).val, hso4⟩ rfl rfl r f).trans (congrFun hK _))
    (fun f j => (KGrid.wk_blk V c t f j).trans (hWk f j))
    (fun i' j => (KGrid.query_blk V c t ⟨(grid1.coords t 0).val, hb8⟩ rfl i' j).trans (hQ _ i' j))
    (fun f => (KGrid.value_blk V c t ⟨(grid1.coords t 0).val, hb8⟩ ⟨(grid1.coords t 1).val, hso4⟩ rfl rfl r f).trans (congrFun hV _))
    (fun f g => (KGrid.wv_blk V c t f g).trans (hWv f g))
    hq hk hwq hwk

/-- After the call the result array holds the specification. -/
theorem final (c : Dev nD)
    (hK : (V c main_arg1 : FVec Ideal S8x2048x1024 .f32) = kA) (hV : (V c main_arg2 : FVec Ideal S8x2048x1024 .f32) = vA)
    (hQ : ∀ (b : Fin 8) (s : Fin 2048) (g : Fin 1024), (V c main_v8 : FVec Ideal S8x2048x1024 .bf16) (ix3 b s g) = proj qA wq b s g)
    (hWk : ∀ f j : Fin 1024, (V c main_v3 : FVec Ideal S1024x1024 .bf16) (ix2 f j) = wk (ix2 j f))
    (hWv : ∀ f g : Fin 1024, (V c main_v5 : FVec Ideal S1024x1024 .bf16) (ix2 f g) = wv (ix2 g f))
    (hq : ∀ i, IsReal (qA i)) (hk : ∀ i, IsReal (kA i)) (hwq : ∀ i, IsReal (wq i)) (hwk : ∀ i, IsReal (wk i)) :
    (dat1 V c).arrAt 5 cfg1.N = attn qA kA vA wq wk wv :=
  (dat1 V c).arrAt_eq_of_cover 5 (attn qA kA vA wq wk wv)
    (fun t _ => flushed_eq V qA kA vA wq wk wv c t hK hV hQ hWk hWv hq hk hwq hwk) cover

end Region

end Cert.Attn.KValue

end
-- ==== Proof.EntryHost.lean ====
/-
  The host operations around the first call, read at an index.

  Before it: the query array is reshaped to 16384 rows, row 2048·b + s being row s of batch b; the query weight is
  transposed (narrowing to bf16 is the identity over the extended reals).  After it: the call's output, 16384 rows, is
  reshaped back, so the attention call's entry (b, s, g) is the output's entry (2048·b + s, g).
-/
import proofs.«402531_j73443940761807_3_alg».proof.Proof.Gen.KernelIdeal.Frame
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.Attn.EntryHost

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ) (ρ : Dev nD → PrngReg)

/-- Flat row `2048·b + s` of the 16384-row arrays. -/
def flat (b : Fin 8) (s : Fin 2048) : Fin 16384 := ⟨2048 * b.val + s.val, by omega⟩

/-- The first call's input array is the query array, reshaped. -/
theorem v6_eq (c : Dev nD) :
    (V1 m ρ c main_v6 : FVec Ideal S16384x1024 .f32)
      = shapeCast S16384x1024 (m ((c : Thread nD τ).loc main_arg0) : FVec Ideal S8x2048x1024 .f32)
          shapeCasts_S8x2048x1024_S16384x1024 := by
  show StableHlo.after hostOps0 (W0 m ρ c) (Proc.devRef .tc main_v6) = _
  after_results
  rfl

/-- The first call's weight operand is the query weight, transposed and narrowed. -/
theorem v1_eq (c : Dev nD) :
    (V1 m ρ c main_v1 : FVec Ideal S1024x1024 .bf16)
      = (truncf .bf16 (transpose S1024x1024 [1, 0]
          (m ((c : Thread nD τ).loc main_arg3) : FVec Ideal S1024x1024 .f32)
          transposes_S1024x1024_S1024x1024_1_0 : FVec Ideal S1024x1024 .f32) bitsLt_bf16_f32
            : FVec Ideal S1024x1024 .bf16) := by
  show StableHlo.after hostOps0 (W0 m ρ c) (Proc.devRef .tc main_v1) = _
  after_results

/-- The attention call's projected-query operand is the first call's output array, reshaped. -/
theorem v8_eq (c : Dev nD) :
    (V3 m ρ c main_v8 : FVec Ideal S8x2048x1024 .bf16)
      = shapeCast S8x2048x1024 (W2 m ρ c (Proc.devRef .tc main_v7) : FVec Ideal S16384x1024 .bf16)
          shapeCasts_S16384x1024_S8x2048x1024 := by
  show StableHlo.after hostOps1 (W2 m ρ c) (Proc.devRef .tc main_v8) = _
  after_results
  rfl

/-- The first call's input rows are the query rows, batch and position flattened. -/
theorem v6_apply (c : Dev nD) (b : Fin 8) (s : Fin 2048) (f : Fin 1024) :
    (V1 m ρ c main_v6 : FVec Ideal S16384x1024 .f32) (ix2 (flat b s) f)
      = (m ((c : Thread nD τ).loc main_arg0) : FVec Ideal S8x2048x1024 .f32) (ix3 b s f) := by
  -- row-major position of (b, s, f) among 8·2048·1024 is that of (2048·b + s, f) among 16384·1024
  rw [v6_eq]
  refine shapeCast_apply _ _ _ (ix3 b s f) ?_
  rw [Shape.rowMajor_val_three, Shape.rowMajor_val_two]
  show (b.val * 2048 + s.val) * 1024 + f.val = (2048 * b.val + s.val) * 1024 + f.val
  omega

/-- The first call's weight operand is the transposed query weight. -/
theorem v1_apply (c : Dev nD) (f g : Fin 1024) :
    (V1 m ρ c main_v1 : FVec Ideal S1024x1024 .bf16) (ix2 f g)
      = (m ((c : Thread nD τ).loc main_arg3) : FVec Ideal S1024x1024 .f32) (ix2 g f) := by
  -- narrowing is the identity entrywise; the transpose swaps the two coordinates
  rw [v1_eq, ValueIdx.truncf_apply]
  refine transpose_apply _ _ _ _ (ix2 g f) ?_
  intro a
  match a with
  | ⟨0, _⟩ => rfl
  | ⟨1, _⟩ => rfl

/-- The attention call's projected-query operand is the first call's output, reshaped back. -/
theorem v8_apply (c : Dev nD) (b : Fin 8) (s : Fin 2048) (g : Fin 1024) :
    (V3 m ρ c main_v8 : FVec Ideal S8x2048x1024 .bf16) (ix3 b s g)
      = (W2 m ρ c (Proc.devRef .tc main_v7) : FVec Ideal S16384x1024 .bf16) (ix2 (flat b s) g) := by
  -- the same row-major position, read the other way
  rw [v8_eq]
  generalize (W2 m ρ c (Proc.devRef .tc main_v7) : FVec Ideal S16384x1024 .bf16) = y
  refine shapeCast_apply _ _ _ (ix2 (flat b s) g) ?_
  rw [Shape.rowMajor_val_three, Shape.rowMajor_val_two]
  show (2048 * b.val + s.val) * 1024 + g.val = (b.val * 2048 + s.val) * 1024 + g.val
  omega

end Cert.Attn.EntryHost

end
-- ==== Proof.Entry.lean ====
/-
  What the attention call finds in its five operand arrays.

  The first call writes the projected queries: its sixteen blocks of 1024 rows are the rows of the query array
  (batch and position flattened) times the transposed query weight, so that, reshaped back, entry (b, s, g) is
  Σ_f query[b,s,f] · Wq[g,f].  The key and value weights arrive transposed; the key and value arrays arrive as launched.
-/
import proofs.«402531_j73443940761807_3_alg».proof.Proof.Gen.KernelIdeal.Frame
import proofs.«402531_j73443940761807_3_alg».proof.Proof.Spec
import proofs.«402531_j73443940761807_3_alg».proof.Proof.EntryHost
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.Attn.Entry

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ) (ρ : Dev nD → PrngReg)

/-! ## Buffers no later operation writes -/

/-- A buffer the single reshape after the first call does not write is, at the second call's entry, what the first call left. -/
theorem W3_of_ne_v8 (c : Dev nD) (b : Ref sig .tc) (hb : b ≠ main_v8) :
    W3 m ρ c (Proc.devRef .tc b) = W2 m ρ c (Proc.devRef .tc b) :=
  StableHlo.after_of_forall_not_mem (b := Proc.devRef .tc b) _ _ (List.forall_iff_forall_mem.mp (by
    simp only [hostOps1, List.Forall, StableHlo.reshape_writes, Finset.mem_singleton]
    exact StableHlo.devRef_ne_of_ne hb))

/-- A buffer none of the seven operations before the first call writes still holds its launch contents. -/
theorem W1_of_not_written (c : Dev nD) (b : Ref sig .tc)
    (hb : b ≠ main_v0 ∧ b ≠ main_v1 ∧ b ≠ main_v2 ∧ b ≠ main_v3 ∧ b ≠ main_v4 ∧ b ≠ main_v5 ∧ b ≠ main_v6) :
    W1 m ρ c (Proc.devRef .tc b) = W0 m ρ c (Proc.devRef .tc b) :=
  StableHlo.after_of_forall_not_mem (b := Proc.devRef .tc b) _ _ (List.forall_iff_forall_mem.mp (by
    simp only [hostOps0, List.Forall, StableHlo.unary_writes, StableHlo.reshape_writes, Finset.mem_singleton]
    exact ⟨StableHlo.devRef_ne_of_ne hb.1, StableHlo.devRef_ne_of_ne hb.2.1, StableHlo.devRef_ne_of_ne hb.2.2.1,
      StableHlo.devRef_ne_of_ne hb.2.2.2.1, StableHlo.devRef_ne_of_ne hb.2.2.2.2.1, StableHlo.devRef_ne_of_ne hb.2.2.2.2.2.1,
      StableHlo.devRef_ne_of_ne hb.2.2.2.2.2.2⟩))

/-- The transposed key weight, as the operations before the first call leave it. -/
theorem W1_v3 (c : Dev nD) :
    W1 m ρ c (Proc.devRef .tc main_v3)
      = (truncf (F := Ideal) .bf16 (transpose S1024x1024 [1, 0] (m ((c : Thread nD τ).loc main_arg4) : FVec Ideal S1024x1024 .f32)
          transposes_S1024x1024_S1024x1024_1_0) bitsLt_bf16_f32 : FVec Ideal S1024x1024 .bf16) := by
  show StableHlo.after hostOps0 _ (Proc.devRef .tc main_v3) = _
  after_results <;> rfl

/-- The transposed value weight, as the operations before the first call leave it. -/
theorem W1_v5 (c : Dev nD) :
    W1 m ρ c (Proc.devRef .tc main_v5)
      = (truncf (F := Ideal) .bf16 (transpose S1024x1024 [1, 0] (m ((c : Thread nD τ).loc main_arg5) : FVec Ideal S1024x1024 .f32)
          transposes_S1024x1024_S1024x1024_1_0) bitsLt_bf16_f32 : FVec Ideal S1024x1024 .bf16) := by
  show StableHlo.after hostOps0 _ (Proc.devRef .tc main_v5) = _
  after_results <;> rfl

/-- A transposed square array read at (f, j) is the array at (j, f). -/
theorem transpose_ix2 (x : FVec Ideal S1024x1024 .f32) (f j : Fin 1024) :
    (transpose S1024x1024 [1, 0] x transposes_S1024x1024_S1024x1024_1_0 : FVec Ideal S1024x1024 .f32) (ix2 f j) = x (ix2 j f) :=
  transpose_apply [1, 0] x transposes_S1024x1024_S1024x1024_1_0 (ix2 f j) (ix2 j f) (fun b => by
    match b with
    | ⟨0, _⟩ => rfl
    | ⟨1, _⟩ => rfl)

/-! ## The first call's payload at an index -/

theorem hz : (![0, 0] : Fin 2 → Nat) = fun _ => 0 := funext fun a => by
  match a with
  | ⟨0, _⟩ => rfl
  | ⟨1, _⟩ => rfl

theorem lhs_axis0 (i : S1024x1024.Idx) (q : dot_S1024x1024_S1024x1024_S1024x1024_1_0_0_1_n_n.contr.Idx) :
    (dot_S1024x1024_S1024x1024_S1024x1024_1_0_0_1_n_n.lhsIdx i q 0).val = (i 0).val := by
  unfold DotDims.lhsIdx
  rw [dif_neg (show ¬(0 : Fin S1024x1024.rank) ∈ dot_S1024x1024_S1024x1024_S1024x1024_1_0_0_1_n_n.lhsBatch by decide), dif_pos (show (0 : Fin S1024x1024.rank) ∈ dot_S1024x1024_S1024x1024_S1024x1024_1_0_0_1_n_n.lhsNonContracting by decide)]
  rfl
theorem lhs_axis1 (i : S1024x1024.Idx) (q : dot_S1024x1024_S1024x1024_S1024x1024_1_0_0_1_n_n.contr.Idx) :
    (dot_S1024x1024_S1024x1024_S1024x1024_1_0_0_1_n_n.lhsIdx i q 1).val = (q ⟨0, by decide⟩).val :=
  dot_S1024x1024_S1024x1024_S1024x1024_1_0_0_1_n_n.lhsIdx_val_of_single rfl i q
theorem rhs_axis0 (i : S1024x1024.Idx) (q : dot_S1024x1024_S1024x1024_S1024x1024_1_0_0_1_n_n.contr.Idx) :
    (dot_S1024x1024_S1024x1024_S1024x1024_1_0_0_1_n_n.rhsIdx i q 0).val = (q ⟨0, by decide⟩).val :=
  dot_S1024x1024_S1024x1024_S1024x1024_1_0_0_1_n_n.rhsIdx_val_of_single rfl i q
theorem rhs_axis1 (i : S1024x1024.Idx) (q : dot_S1024x1024_S1024x1024_S1024x1024_1_0_0_1_n_n.contr.Idx) :
    (dot_S1024x1024_S1024x1024_S1024x1024_1_0_0_1_n_n.rhsIdx i q 1).val = (i 1).val := by
  unfold DotDims.rhsIdx
  rw [dif_neg (show ¬(1 : Fin S1024x1024.rank) ∈ dot_S1024x1024_S1024x1024_S1024x1024_1_0_0_1_n_n.rhsBatch by decide), dif_pos (show (1 : Fin S1024x1024.rank) ∈ dot_S1024x1024_S1024x1024_S1024x1024_1_0_0_1_n_n.rhsNonContracting by decide)]
  rfl

/-- The body's one stored value at (p, g): row p of the left block against column g of the right block. -/
theorem pay_apply (x0 : FVec Ideal S1024x1024 .f32) (x1 : FVec Ideal S1024x1024 .bf16) (p g : Fin 1024) :
    k0_pay1 (F := Ideal) x0 x1 (ix2 p g) = (∑ f : Fin 1024, x0 (ix2 p f) * x1 (ix2 f g) : EReal) := by
  unfold k0_pay1
  simp only [matmul, shapeCast_self, truncf_apply]
  rw [Ideal.matmul_constant_zero_apply, ← Equiv.sum_comp (contrEquiv1 dot_S1024x1024_S1024x1024_S1024x1024_1_0_0_1_n_n 1024 rfl rfl).symm]
  refine Finset.sum_congr rfl fun k _ => ?_
  have hk := contrEquiv1_symm_val dot_S1024x1024_S1024x1024_S1024x1024_1_0_0_1_n_n 1024 rfl rfl k
  have el : dot_S1024x1024_S1024x1024_S1024x1024_1_0_0_1_n_n.lhsIdx (ix2 p g) ((contrEquiv1 dot_S1024x1024_S1024x1024_S1024x1024_1_0_0_1_n_n 1024 rfl rfl).symm k) = ix2 p k := funext fun a => Fin.ext (by
    match a with
    | ⟨0, _⟩ => exact lhs_axis0 _ _
    | ⟨1, _⟩ => exact (lhs_axis1 _ _).trans hk)
  have er : dot_S1024x1024_S1024x1024_S1024x1024_1_0_0_1_n_n.rhsIdx (ix2 p g) ((contrEquiv1 dot_S1024x1024_S1024x1024_S1024x1024_1_0_0_1_n_n 1024 rfl rfl).symm k) = ix2 k g := funext fun a => Fin.ext (by
    match a with
    | ⟨0, _⟩ => exact (rhs_axis0 _ _).trans hk
    | ⟨1, _⟩ => exact rhs_axis1 _ _)
  rw [el, er]
  rfl

/-! ## The first call's output array -/

/-- Row R of a 16384-row array against column g of a square one. -/
def projFlat (q : FVec Ideal S16384x1024 .f32) (w : FVec Ideal S1024x1024 .bf16) (R : Fin 16384) (g : Fin 1024) : EReal :=
  ∑ f : Fin 1024, q (ix2 R f) * w (ix2 f g)

/-- The product of the two arrays, entry by entry. -/
def G0 (q : FVec Ideal S16384x1024 .f32) (w : FVec Ideal S1024x1024 .bf16) : FVec Ideal S16384x1024 .bf16 :=
  fun i => projFlat q w (i 0) (i 1)

/-- The three index maps over the sixteen points: the row windows sit at block t, the weight window at block 0. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 ∧ t.val < 16 :=
  (by decide +kernel : ∀ t : Fin grid0.N, _)

section Region0

variable (V : (c : Dev nD) → (b : Ref sig .tc) → Buf (Elt Ideal) ((c : Thread nD τ).loc b))

/-- The row window's block at point t holds rows 1024·t … 1024·t + 1023 of the flat query array. -/
theorem iblk0_0_apply (c : Dev nD) (t : Fin cfg0.N) (p f : Fin 1024) (R : Fin 16384) (hR : R.val = 1024 * t.val + p.val) :
    (iblk0 V c 0 t : FVec Ideal S1024x1024 .f32) (ix2 p f) = (V c main_v6 : FVec Ideal S16384x1024 .f32) (ix2 R f) := by
  obtain ⟨e00, e01, -, -, -, -, -⟩ := idx_facts t
  unfold iblk0
  rw [View.read_apply]
  show V c main_v6 _ = V c main_v6 _
  congr 1
  funext a
  apply Fin.ext
  match a with
  | ⟨0, _⟩ => show win0_0.index t (0 : Fin 2) * 1024 + 1 * p.val = R.val; omega
  | ⟨1, _⟩ => show win0_0.index t (1 : Fin 2) * 1024 + 1 * f.val = f.val; omega

/-- The weight window's block is the whole weight at every point. -/
theorem iblk0_1_apply (c : Dev nD) (t : Fin cfg0.N) (f g : Fin 1024) :
    (iblk0 V c 1 t : FVec Ideal S1024x1024 .bf16) (ix2 f g) = (V c main_v1 : FVec Ideal S1024x1024 .bf16) (ix2 f g) := by
  obtain ⟨-, -, e10, e11, -, -, -⟩ := idx_facts t
  unfold iblk0
  rw [View.read_apply]
  show V c main_v1 _ = V c main_v1 _
  congr 1
  funext a
  apply Fin.ext
  match a with
  | ⟨0, _⟩ => show win0_1.index t (0 : Fin 2) * 1024 + 1 * f.val = f.val; omega
  | ⟨1, _⟩ => show win0_1.index t (1 : Fin 2) * 1024 + 1 * g.val = g.val; omega

/-- What point t writes back is block t of the product. -/
theorem flushed_eq (c : Dev nD) (t : Fin cfg0.N) :
    (dat0 V c).flushed 2 t = ((cfg0.win 2).blk t).view.read (Elt Ideal) (G0 (V c main_v6) (V c main_v1)) := by
  show (cfg0.win 2).cut (grid0.coords t) ((dat0 V c).after 2 t) = _
  rw [after0_2]
  unfold out0_2
  rw [View.canon_unit_zero hz]
  simp only [View.ld_unit_zero (S := S1024x1024) hz]
  obtain ⟨-, -, -, -, e20, e21, ht⟩ := idx_facts t
  funext y
  obtain ⟨p, g, rfl⟩ : ∃ (p g : Fin 1024), y = ix2 p g := ⟨y 0, y 1, eq_ix2 y⟩
  obtain ⟨R, hR⟩ : ∃ R : Fin 16384, R.val = 1024 * t.val + p.val := ⟨⟨1024 * t.val + p.val, by omega⟩, rfl⟩
  have hemb : ((cfg0.win 2).blk t).view.emb (ix2 p g) = (ix2 R g : S16384x1024.Idx) := by
    funext a
    apply Fin.ext
    match a with
    | ⟨0, _⟩ => show win0_2.index t (0 : Fin 2) * 1024 + 1 * p.val = R.val; omega
    | ⟨1, _⟩ => show win0_2.index t (1 : Fin 2) * 1024 + 1 * g.val = g.val; omega
  show k0_pay1 (iblk0 V c 0 t) (iblk0 V c 1 t) (ix2 p g)
    = G0 (V c main_v6) (V c main_v1) (((cfg0.win 2).blk t).view.emb (ix2 p g))
  refine (pay_apply (iblk0 V c 0 t) (iblk0 V c 1 t) p g).trans ?_
  refine Eq.trans ?_ (congrArg (G0 (V c main_v6) (V c main_v1)) hemb).symm
  show _ = projFlat (V c main_v6) (V c main_v1) R g
  unfold projFlat
  refine Finset.sum_congr rfl fun f _ => ?_
  rw [iblk0_0_apply V c t p f R hR, iblk0_1_apply V c t f g]

/-- An index of the output array is in point t's block iff each coordinate is in the block's range on its axis. -/
theorem mem_blk (t : Fin cfg0.N) (i : S16384x1024.Idx) :
    i ∈ ((cfg0.win 2).blk t).view.set ↔ ∀ a : Fin 2, win0_2.index t a * S1024x1024.size a ≤ (i a).val ∧ (i a).val < win0_2.index t a * S1024x1024.size a + S1024x1024.size a := by
  show i ∈ ((View.whole main_v7).slice (win0_2.rect t)).set ↔ _
  rw [View.set_slice_whole, Rect.mem_set_unit]
  exact Iff.rfl

/-- Row r of the output array is in the block of point r / 1024. -/
theorem cover (i : S16384x1024.Idx) :
    ∃ t : Fin cfg0.N, (cfg0.win 2).flush t = true ∧ i ∈ ((cfg0.win 2).blk t).view.set := by
  have hi0 : (i 0).val < 16384 := (i 0).isLt
  have hi1 : (i 1).val < 1024 := (i 1).isLt
  obtain ⟨t, ht⟩ : ∃ t : Fin cfg0.N, t.val = (i 0).val / 1024 :=
    ⟨⟨(i 0).val / 1024, lt_of_lt_of_le (by omega : (i 0).val / 1024 < 16) (le_of_eq N_0.symm)⟩, rfl⟩
  obtain ⟨-, -, -, -, e20, e21, -⟩ := idx_facts t
  refine ⟨t, flush0_2 t, ?_⟩
  rw [mem_blk]
  intro a
  match a with
  | ⟨0, _⟩ => show win0_2.index t (0 : Fin 2) * 1024 ≤ (i 0).val ∧ (i 0).val < win0_2.index t (0 : Fin 2) * 1024 + 1024; omega
  | ⟨1, _⟩ => show win0_2.index t (1 : Fin 2) * 1024 ≤ (i 1).val ∧ (i 1).val < win0_2.index t (1 : Fin 2) * 1024 + 1024; omega

/-- The first call leaves the product of its two operand arrays in its output array. -/
theorem final0 (c : Dev nD) : (dat0 V c).arrAt 2 cfg0.N = G0 (V c main_v6) (V c main_v1) :=
  (dat0 V c).arrAt_eq_of_cover 2 (G0 (V c main_v6) (V c main_v1)) (fun t _ => flushed_eq V c t) cover

end Region0

/-- The projected queries, as the attention call finds them: entry (b, s, g) is the projection of the specification. -/
theorem qt_apply (c : Dev nD) (b : Fin 8) (s : Fin 2048) (g : Fin 1024) :
    (V3 m ρ c main_v8 : FVec Ideal S8x2048x1024 .bf16) (ix3 b s g)
      = Cert.Attn.proj (m ((c : Thread nD τ).loc main_arg0)) (m ((c : Thread nD τ).loc main_arg3)) b s g := by
  have hW : W2 m ρ c (Proc.devRef .tc main_v7) = G0 (V1 m ρ c main_v6) (V1 m ρ c main_v1) :=
    (W2_arr m ρ c 2).trans (final0 (V1 m ρ) c)
  rw [EntryHost.v8_apply m ρ c b s g, hW]
  show projFlat (V1 m ρ c main_v6) (V1 m ρ c main_v1) (EntryHost.flat b s) g = _
  unfold projFlat Cert.Attn.proj
  refine Finset.sum_congr rfl fun f _ => ?_
  rw [EntryHost.v6_apply m ρ c b s f, EntryHost.v1_apply m ρ c f g]

/-- The key weight arrives transposed. -/
theorem wk_apply (c : Dev nD) (f j : Fin 1024) :
    (V3 m ρ c main_v3 : FVec Ideal S1024x1024 .bf16) (ix2 f j) = (m ((c : Thread nD τ).loc main_arg4) : FVec Ideal S1024x1024 .f32) (ix2 j f) := by
  show (W3 m ρ c (Proc.devRef .tc main_v3) : FVec Ideal S1024x1024 .bf16) (ix2 f j) = _
  rw [W3_of_ne_v8 m ρ c main_v3 (by decide), W2_of_ne m ρ c main_v3 (by decide), W1_v3 m ρ c, truncf_apply, transpose_ix2]

/-- The value weight arrives transposed. -/
theorem wv_apply (c : Dev nD) (f g : Fin 1024) :
    (V3 m ρ c main_v5 : FVec Ideal S1024x1024 .bf16) (ix2 f g) = (m ((c : Thread nD τ).loc main_arg5) : FVec Ideal S1024x1024 .f32) (ix2 g f) := by
  show (W3 m ρ c (Proc.devRef .tc main_v5) : FVec Ideal S1024x1024 .bf16) (ix2 f g) = _
  rw [W3_of_ne_v8 m ρ c main_v5 (by decide), W2_of_ne m ρ c main_v5 (by decide), W1_v5 m ρ c, truncf_apply, transpose_ix2]

/-- The key array arrives as launched. -/
theorem key_eq (c : Dev nD) : V3 m ρ c main_arg1 = m ((c : Thread nD τ).loc main_arg1) := by
  show W3 m ρ c (Proc.devRef .tc main_arg1) = _
  rw [W3_of_ne_v8 m ρ c main_arg1 (by decide), W2_of_ne m ρ c main_arg1 (by decide),
    W1_of_not_written m ρ c main_arg1 (by decide)]

/-- The value array arrives as launched. -/
theorem value_eq (c : Dev nD) : V3 m ρ c main_arg2 = m ((c : Thread nD τ).loc main_arg2) := by
  show W3 m ρ c (Proc.devRef .tc main_arg2) = _
  rw [W3_of_ne_v8 m ρ c main_arg2 (by decide), W2_of_ne m ρ c main_arg2 (by decide),
    W1_of_not_written m ρ c main_arg2 (by decide)]

end Cert.Attn.Entry

end
-- ==== Proof.KResult.lean ====
/-
  The kernel program's run, with its result named: the specification of the launch contents of the six arguments.

  The attention call finds the key and value arrays as launched, the projected queries from the first call and the two
  transposed weights from the host operations before it; with real inputs it leaves the specification in the result array,
  and nothing after it touches that array.
-/
import proofs.«402531_j73443940761807_3_alg».proof.Proof.Gen.KernelIdeal.Frame
import proofs.«402531_j73443940761807_3_alg».proof.Proof.KRun
import proofs.«402531_j73443940761807_3_alg».proof.Proof.KValue
import proofs.«402531_j73443940761807_3_alg».proof.Proof.Entry

set_option maxRecDepth 16384

noncomputable section

namespace Cert.Attn.KResult

open Idealize.ShloMosaic Idealize.ShloMosaic.TcCoe Idealize.ShloMosaic.ValueIdx Idealize.SL.Sem
open Cert.KernelIdeal Cert.KernelIdeal.Gen
open Cert.Attn Cert.Attn.KValue

variable (m : (ℓ : Loc nD τ sig) → Buf (Elt Ideal) ℓ) (ρ : Dev nD → PrngReg)

/-- The last boundary's contents at the result array: the specification. -/
theorem result_eq (c : Dev nD)
    (hq : ∀ i, IsReal ((m ((c : Thread nD τ).loc main_arg0) : FVec Ideal S8x2048x1024 .f32) i))
    (hk : ∀ i, IsReal ((m ((c : Thread nD τ).loc main_arg1) : FVec Ideal S8x2048x1024 .f32) i))
    (hwq : ∀ i, IsReal ((m ((c : Thread nD τ).loc main_arg3) : FVec Ideal S1024x1024 .f32) i))
    (hwk : ∀ i, IsReal ((m ((c : Thread nD τ).loc main_arg4) : FVec Ideal S1024x1024 .f32) i)) :
    W4 m ρ c (Proc.devRef .tc main_v9)
      = attn (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) :=
  (W4_arr m ρ c 5).trans
    (KValue.final (V3 m ρ) (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) c
      (Entry.key_eq m ρ c) (Entry.value_eq m ρ c) (Entry.qt_apply m ρ c) (Entry.wk_apply m ρ c) (Entry.wv_apply m ρ c)
      hq hk hwq hwk)

/-- Every weakly fair execution terminates without a fault with the result array at the specification and the arguments as
    launched, when the query-side and key-side inputs are real on every core. -/
theorem run
    (hq : ∀ c : Dev nD, ∀ i, IsReal ((m ((c : Thread nD τ).loc main_arg0) : FVec Ideal S8x2048x1024 .f32) i))
    (hk : ∀ c : Dev nD, ∀ i, IsReal ((m ((c : Thread nD τ).loc main_arg1) : FVec Ideal S8x2048x1024 .f32) i))
    (hwq : ∀ c : Dev nD, ∀ i, IsReal ((m ((c : Thread nD τ).loc main_arg3) : FVec Ideal S1024x1024 .f32) i))
    (hwk : ∀ c : Dev nD, ∀ i, IsReal ((m ((c : Thread nD τ).loc main_arg4) : FVec Ideal S1024x1024 .f32) i)) :
    θ_run (defs (F := Ideal)) (onTc (τ := τ) (main (F := Ideal))) ⟨m, fun _ => 0, ρ⟩ (fun r => ∀ c : Dev nD,
      r.2.mem ((c.tc : Thread nD τ).loc main_v9)
        = attn (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run (defs (F := Ideal)) _ _).mono
    (fun r h c => ⟨(h c).1.trans (result_eq m ρ c (hq c) (hk c) (hwq c) (hwk c)), (h c).2⟩)
    (Cert.Attn.KRun.run_named m ρ)

end Cert.Attn.KResult

end
-- ==== Proof.lean ====
/-
  The kernel computes attention weights down the QUERY axis with a running maximum and a running sum and keeps only the
  diagonal weight; the reference takes a softmax down axis 1 of the score array, its diagonal, and scales the projected
  values.  Over the extended reals, with finite inputs, both are one function of the six arguments (Proof/Spec.lean):

    out[b,s,g] = exp (score[b,s,s] − M[b,s]) / Z[b,s] · (value · Wvᵀ)[b,s,g],
    score[b,i,s] = ((query · Wqᵀ)[b,i,·] · (key · Wkᵀ)[b,s,·]) / 32,  M[b,s] = max_i score[b,i,s],  Z[b,s] = Σ_i exp (score[b,i,s] − M[b,s]).

  The reference's side is read operation by operation (Proof/RefValue.lean); its scale 1 / √1024 is the kernel's 1/32.
  The kernel's side: the first call writes the projected queries (Proof/Entry.lean); a point of the second call stores
  the named function of its blocks (Proof/BodyRun.lean), which entry by entry is the diagonal weight by the chunk-by-chunk
  maximum and normaliser times the projected value (Proof/BodyValue.lean); chunk by chunk or at once the maximum and the
  normaliser are the same for a row of real numbers (Proof/Online.lean), and the scores are real because the precondition
  makes the inputs real (Proof/Finite.lean); the 32 blocks tile the result (Proof/KValue.lean, Proof/KResult.lean).
  Narrowing to bf16 and widening back is the identity over the extended reals, which is the one idealization the kernel's
  printed form records.
-/
import proofs.«402531_j73443940761807_3_alg».proof.Defs
import proofs.«402531_j73443940761807_3_alg».proof.Proof.Gen.Kernel
import proofs.«402531_j73443940761807_3_alg».proof.Proof.Gen.Kernel.Frame
import proofs.«402531_j73443940761807_3_alg».proof.Proof.Gen.KernelIdeal
import proofs.«402531_j73443940761807_3_alg».proof.Proof.Gen.KernelIdeal.Frame
import proofs.«402531_j73443940761807_3_alg».proof.Proof.Gen.ReferenceIdeal
import proofs.«402531_j73443940761807_3_alg».proof.Proof.Gen.ReferenceIdeal.Run
import proofs.«402531_j73443940761807_3_alg».proof.Proof.Gen.ReferenceIdeal.Read
import proofs.«402531_j73443940761807_3_alg».proof.Proof.Gen.Pre_finite_inputs
import proofs.«402531_j73443940761807_3_alg».proof.Proof.Spec
import proofs.«402531_j73443940761807_3_alg».proof.Proof.Finite
import proofs.«402531_j73443940761807_3_alg».proof.Proof.RefValue
import proofs.«402531_j73443940761807_3_alg».proof.Proof.KResult
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- Narrowing a 512 × 1024 tile to bf16 and widening it back: the identity over the extended reals, the rounding at the word level. -/
theorem preserves : Cert.preserves_Kernel_KernelIdeal :=
  IdealRules.truncf_extf.statement Cert.KernelIdeal.S512x1024 .f32 .bf16

/-- Both programs end with the specification of the (agreeing) arguments in their result arrays. -/
theorem algebraic : Cert.algebraic_KernelIdeal_ReferenceIdeal := by
  intro m ρ m' ρ' hpre hagree
  have hfin := fun c : Dev Cert.KernelIdeal.nD => Cert.Attn.Finite.of_pre _ _ _ _ _ _ (hpre c)
  refine ⟨fun c => Cert.Attn.attn (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)),
    Cert.Attn.KResult.run m ρ (fun c => (hfin c).1) (fun c => (hfin c).2.1) (fun c => (hfin c).2.2.2.1) (fun c => (hfin c).2.2.2.2.1), ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v22_eq, Cert.Attn.Ref.ref_eq, (hagree c).1, (hagree c).2.1, (hagree c).2.2.1,
    (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
